-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1024 : Shape := ⟨2, ![4096, 1024]⟩
abbrev S1024x1536 : Shape := ⟨2, ![1024, 1536]⟩
abbrev S1024 : Shape := ⟨1, ![1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S1024 : S_.BroadcastsInDim S1024 (![] : Fin 0 → Fin S1024.rank)
  reducesTo_S1024_S_d0 : S1024.ReducesTo [0] S_

variable [Facts]

def fn_part6 {F : FTy → Type} [FloatOps F] (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  main_v103

def fn_part5 {F : FTy → Type} [FloatOps F] (main_arg18 : FVec F S1024 .f32) (main_arg19 : FVec F S1024x1536 .f32) (main_arg20 : FVec F S1024 .f32) (main_v83 : IVec S_ 1) (main_v84 : FVec F S1024x1536 .f32) (main_cst_32 : FVec F S_ .f32) : IVec S_ 1 :=
  let main_v85 : FVec F S1024x1536 .f32 := broadcastInDim S1024x1536 ![] bcast_S_S1024x1536 main_cst_32
  let main_v86 : IVec S1024x1536 1 := cmpf .olt main_v84 main_v85
  let main_c_33 : IVec S_ 1 := constantI S_ 1 1#1
  let main_v87 : IVec S_ 1 := (fun x v => Host.reduce IntOp.andi x v reducesTo_S1024x1536_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x1536 .f32 := Host.absf main_arg19
  let main_cst_36 : FVec F S_ .f32 := constant S_ .f32 0x7F800000#32
  let main_v95 : FVec F S1024x1536 .f32 := broadcastInDim S1024x1536 ![] bcast_S_S1024x1536 main_cst_36
  let main_v96 : IVec S1024x1536 1 := cmpf .olt main_v94 main_v95
  let main_c_37 : IVec S_ 1 := constantI S_ 1 1#1
  let main_v97 : IVec S_ 1 := (fun x v => Host.reduce IntOp.andi x v reducesTo_S1024x1536_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_v98 main_v101 main_c_39

def fn_part4 {F : FTy → Type} [FloatOps F] (main_arg14 : FVec F S1024 .f32) (main_arg15 : FVec F S1024x1536 .f32) (main_arg16 : FVec F S1024 .f32) (main_arg17 : FVec F S1024x1536 .f32) (main_arg18 : FVec F S1024 .f32) (main_arg19 : FVec F S1024x1536 .f32) (main_arg20 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1536 .f32 := Host.absf main_arg15
  let main_cst_28 : FVec F S_ .f32 := constant S_ .f32 0x7F800000#32
  let main_v75 : FVec F S1024x1536 .f32 := broadcastInDim S1024x1536 ![] bcast_S_S1024x1536 main_cst_28
  let main_v76 : IVec S1024x1536 1 := cmpf .olt main_v74 main_v75
  let main_c_29 : IVec S_ 1 := constantI S_ 1 1#1
  let main_v77 : IVec S_ 1 := (fun x v => Host.reduce IntOp.andi x v reducesTo_S1024x1536_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1536 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S1024x1536 .f32) (main_arg12 : FVec F S1024 .f32) (main_arg13 : FVec F S1024x1536 .f32) (main_arg14 : FVec F S1024 .f32) (main_arg15 : FVec F S1024x1536 .f32) (main_arg16 : FVec F S1024 .f32) (main_arg17 : FVec F S1024x1536 .f32) (main_arg18 : FVec F S1024 .f32) (main_arg19 : FVec F S1024x1536 .f32) (main_arg20 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1536 .f32 := Host.absf main_arg11
  let main_cst_20 : FVec F S_ .f32 := constant S_ .f32 0x7F800000#32
  let main_v55 : FVec F S1024x1536 .f32 := broadcastInDim S1024x1536 ![] bcast_S_S1024x1536 main_cst_20
  let main_v56 : IVec S1024x1536 1 := cmpf .olt main_v54 main_v55
  let main_c_21 : IVec S_ 1 := constantI S_ 1 1#1
  let main_v57 : IVec S_ 1 := (fun x v => Host.reduce IntOp.andi x v reducesTo_S1024x1536_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1536 .f32 := Host.absf main_arg13
  let main_cst_24 : FVec F S_ .f32 := constant S_ .f32 0x7F800000#32
  let main_v65 : FVec F S1024x1536 .f32 := broadcastInDim S1024x1536 ![] bcast_S_S1024x1536 main_cst_24
  let main_v66 : IVec S1024x1536 1 := cmpf .olt main_v64 main_v65
  let main_c_25 : IVec S_ 1 := constantI S_ 1 1#1
  let main_v67 : IVec S_ 1 := (fun x v => Host.reduce IntOp.andi x v reducesTo_S1024x1536_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S1024x1536 .f32) (main_arg8 : FVec F S1024 .f32) (main_arg9 : FVec F S1024x1536 .f32) (main_arg10 : FVec F S1024 .f32) (main_arg11 : FVec F S1024x1536 .f32) (main_arg12 : FVec F S1024 .f32) (main_arg13 : FVec F S1024x1536 .f32) (main_arg14 : FVec F S1024 .f32) (main_arg15 : FVec F S1024x1536 .f32) (main_arg16 : FVec F S1024 .f32) (main_arg17 : FVec F S1024x1536 .f32) (main_arg18 : FVec F S1024 .f32) (main_arg19 : FVec F S1024x1536 .f32) (main_arg20 : FVec F S1024 .f32) (main_v33 : IVec S_ 1) : IVec S_ 1 :=
  let main_v34 : FVec F S1024x1536 .f32 := Host.absf main_arg7
  let main_cst_12 : FVec F S_ .f32 := constant S_ .f32 0x7F800000#32
  let main_v35 : FVec F S1024x1536 .f32 := broadcastInDim S1024x1536 ![] bcast_S_S1024x1536 main_cst_12
  let main_v36 : IVec S1024x1536 1 := cmpf .olt main_v34 main_v35
  let main_c_13 : IVec S_ 1 := constantI S_ 1 1#1
  let main_v37 : IVec S_ 1 := (fun x v => Host.reduce IntOp.andi x v reducesTo_S1024x1536_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1536 .f32 := Host.absf main_arg9
  let main_cst_16 : FVec F S_ .f32 := constant S_ .f32 0x7F800000#32
  let main_v45 : FVec F S1024x1536 .f32 := broadcastInDim S1024x1536 ![] bcast_S_S1024x1536 main_cst_16
  let main_v46 : IVec S1024x1536 1 := cmpf .olt main_v44 main_v45
  let main_c_17 : IVec S_ 1 := constantI S_ 1 1#1
  let main_v47 : IVec S_ 1 := (fun x v => Host.reduce IntOp.andi x v reducesTo_S1024x1536_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S4096x1024 .f32) (main_arg5 : FVec F S1024x1536 .f32) (main_arg6 : FVec F S1024 .f32) (main_arg7 : FVec F S1024x1536 .f32) (main_arg8 : FVec F S1024 .f32) (main_arg9 : FVec F S1024x1536 .f32) (main_arg10 : FVec F S1024 .f32) (main_arg11 : FVec F S1024x1536 .f32) (main_arg12 : FVec F S1024 .f32) (main_arg13 : FVec F S1024x1536 .f32) (main_arg14 : FVec F S1024 .f32) (main_arg15 : FVec F S1024x1536 .f32) (main_arg16 : FVec F S1024 .f32) (main_arg17 : FVec F S1024x1536 .f32) (main_arg18 : FVec F S1024 .f32) (main_arg19 : FVec F S1024x1536 .f32) (main_arg20 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024x1536 .f32 := Host.absf main_arg5
  let main_cst_8 : FVec F S_ .f32 := constant S_ .f32 0x7F800000#32
  let main_v25 : FVec F S1024x1536 .f32 := broadcastInDim S1024x1536 ![] bcast_S_S1024x1536 main_cst_8
  let main_v26 : IVec S1024x1536 1 := cmpf .olt main_v24 main_v25
  let main_c_9 : IVec S_ 1 := constantI S_ 1 1#1
  let main_v27 : IVec S_ 1 := (fun x v => Host.reduce IntOp.andi x v reducesTo_S1024x1536_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S4096x512 .f32) (main_arg1 : FVec F S4096x1024 .f32) (main_arg2 : FVec F S4096x1024 .f32) (main_arg3 : FVec F S4096x1024 .f32) (main_arg4 : FVec F S4096x1024 .f32) (main_arg5 : FVec F S1024x1536 .f32) (main_arg6 : FVec F S1024 .f32) (main_arg7 : FVec F S1024x1536 .f32) (main_arg8 : FVec F S1024 .f32) (main_arg9 : FVec F S1024x1536 .f32) (main_arg10 : FVec F S1024 .f32) (main_arg11 : FVec F S1024x1536 .f32) (main_arg12 : FVec F S1024 .f32) (main_arg13 : FVec F S1024x1536 .f32) (main_arg14 : FVec F S1024 .f32) (main_arg15 : FVec F S1024x1536 .f32) (main_arg16 : FVec F S1024 .f32) (main_arg17 : FVec F S1024x1536 .f32) (main_arg18 : FVec F S1024 .f32) (main_arg19 : FVec F S1024x1536 .f32) (main_arg20 : FVec F S1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4096x512 : Shape := ⟨2, ![4096, 512]⟩
abbrev S4096x1024 : Shape := ⟨2, ![4096, 1024]⟩
abbrev S1024x1536 : Shape := ⟨2, ![1024, 1536]⟩
abbrev S1024 : Shape := ⟨1, ![1024]⟩
abbrev S1024x1024 : Shape := ⟨2, ![1024, 1024]⟩
abbrev S1024x4096 : Shape := ⟨2, ![1024, 4096]⟩
abbrev S1024x512 : Shape := ⟨2, ![1024, 512]⟩
abbrev S512x1024 : Shape := ⟨2, ![512, 1024]⟩
abbrev S512x4096 : Shape := ⟨2, ![512, 4096]⟩
abbrev S4096 : Shape := ⟨1, ![4096]⟩
abbrev S1x4096 : Shape := ⟨2, ![1, 4096]⟩
abbrev S64x1024 : Shape := ⟨2, ![64, 1024]⟩
abbrev S64x512 : Shape := ⟨2, ![64, 512]⟩
abbrev S64x4096 : Shape := ⟨2, ![64, 4096]⟩

abbrev nBuf : Space → Nat
  | .hbm => 67
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1536, .f32⟩
  | .hbm, ⟨6, _⟩ => ⟨S1024, .f32⟩
  | .hbm, ⟨7, _⟩ => ⟨S1024x1536, .f32⟩
  | .hbm, ⟨8, _⟩ => ⟨S1024, .f32⟩
  | .hbm, ⟨9, _⟩ => ⟨S1024x1536, .f32⟩
  | .hbm, ⟨10, _⟩ => ⟨S1024, .f32⟩
  | .hbm, ⟨11, _⟩ => ⟨S1024x1536, .f32⟩
  | .hbm, ⟨12, _⟩ => ⟨S1024, .f32⟩
  | .hbm, ⟨13, _⟩ => ⟨S1024x1536, .f32⟩
  | .hbm, ⟨14, _⟩ => ⟨S1024, .f32⟩
  | .hbm, ⟨15, _⟩ => ⟨S1024x1536, .f32⟩
  | .hbm, ⟨16, _⟩ => ⟨S1024, .f32⟩
  | .hbm, ⟨17, _⟩ => ⟨S1024x1536, .f32⟩
  | .hbm, ⟨18, _⟩ => ⟨S1024, .f32⟩
  | .hbm, ⟨19, _⟩ => ⟨S1024x1536, .f32⟩
  | .hbm, ⟨20, _⟩ => ⟨S1024, .f32⟩
  | .hbm, ⟨21, _⟩ => ⟨S1024x1024, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x4096, .f32⟩
  | .hbm, ⟨30, _⟩ => ⟨S1024x4096, .bf16⟩
  | .hbm, ⟨31, _⟩ => ⟨S1024x512, .f32⟩
  | .hbm, ⟨32, _⟩ => ⟨S512x1024, .f32⟩
  | .hbm, ⟨33, _⟩ => ⟨S1024x512, .f32⟩
  | .hbm, ⟨34, _⟩ => ⟨S512x1024, .f32⟩
  | .hbm, ⟨35, _⟩ => ⟨S1024x512, .f32⟩
  | .hbm, ⟨36, _⟩ => ⟨S512x1024, .f32⟩
  | .hbm, ⟨37, _⟩ => ⟨S1024x512, .f32⟩
  | .hbm, ⟨38, _⟩ => ⟨S512x1024, .f32⟩
  | .hbm, ⟨39, _⟩ => ⟨S512x4096, .f32⟩
  | .hbm, ⟨40, _⟩ => ⟨S512x4096, .bf16⟩
  | .hbm, ⟨41, _⟩ => ⟨S4096, .f32⟩
  | .hbm, ⟨42, _⟩ => ⟨S1x4096, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x4096, .f32⟩
  | .hbm, ⟨52, _⟩ => ⟨S1024x4096, .bf16⟩
  | .hbm, ⟨53, _⟩ => ⟨S1024x512, .f32⟩
  | .hbm, ⟨54, _⟩ => ⟨S512x1024, .f32⟩
  | .hbm, ⟨55, _⟩ => ⟨S1024x512, .f32⟩
  | .hbm, ⟨56, _⟩ => ⟨S512x1024, .f32⟩
  | .hbm, ⟨57, _⟩ => ⟨S1024x512, .f32⟩
  | .hbm, ⟨58, _⟩ => ⟨S512x1024, .f32⟩
  | .hbm, ⟨59, _⟩ => ⟨S1024x512, .f32⟩
  | .hbm, ⟨60, _⟩ => ⟨S512x1024, .f32⟩
  | .hbm, ⟨61, _⟩ => ⟨S512x4096, .f32⟩
  | .hbm, ⟨62, _⟩ => ⟨S512x4096, .bf16⟩
  | .hbm, ⟨63, _⟩ => ⟨S4096, .f32⟩
  | .hbm, ⟨64, _⟩ => ⟨S1x4096, .f32⟩
  | .hbm, ⟨65, _⟩ => ⟨S4096x1024, .f32⟩
  | .hbm, ⟨66, _⟩ => ⟨S4096x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x512, .f32⟩
  | .local _ .vmem, ⟨5, _⟩ => ⟨S64x512, .f32⟩
  | .local _ .vmem, ⟨6, _⟩ => ⟨S64x1024, .f32⟩
  | .local _ .vmem, ⟨7, _⟩ => ⟨S64x1024, .f32⟩
  | .local _ .vmem, ⟨8, _⟩ => ⟨S1024x4096, .bf16⟩
  | .local _ .vmem, ⟨9, _⟩ => ⟨S512x4096, .bf16⟩
  | .local _ .vmem, ⟨10, _⟩ => ⟨S1x4096, .f32⟩
  | .local _ .vmem, ⟨11, _⟩ => ⟨S1024x4096, .bf16⟩
  | .local _ .vmem, ⟨12, _⟩ => ⟨S512x4096, .bf16⟩
  | .local _ .vmem, ⟨13, _⟩ => ⟨S1x4096, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44_0 : Ref sig .tc := ⟨.hbm, 65, rfl⟩
abbrev main_v44_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1024x1536_S1024x1024_0_0 : S1024x1536.Slices ![0, 0] S1024x1024
  transposes_S1024x1024_S1024x1024_1_0 : S1024x1024.Transposes [1, 0] S1024x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  slices_S1024x1536_S1024x512_0_1024 : S1024x1536.Slices ![0, 1024] S1024x512
  transposes_S1024x512_S512x1024_1_0 : S1024x512.Transposes [1, 0] S512x1024
  concatenates_S512x1024_S512x1024_S512x1024_S512x1024_S512x4096_d1 : Shape.Concatenates [S512x1024, S512x1024, S512x1024, S512x1024] S512x4096 1
  concatenates_S1024_S1024_S1024_S1024_S4096_d0 : Shape.Concatenates [S1024, S1024, S1024, S1024] S4096 0
  shapeCasts_S4096_S1x4096 : S4096.ShapeCasts S1x4096
  inb_S64x512_S64x512_0_0 : ∀ a, (![0, 0] : Fin 2 → Nat) a + S64x512.size a ≤ S64x512.size a
  h_S64x512 : 0 < S64x512.numel
  inb_S64x1024_S64x1024_0_0 : ∀ a, (![0, 0] : Fin 2 → Nat) a + S64x1024.size a ≤ S64x1024.size a
  h_S64x1024 : 0 < S64x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  slices_S64x4096_o0_0_S64x1024 : S64x4096.Slices ![0, 0] S64x1024
  slices_S64x4096_o0_1024_S64x1024 : S64x4096.Slices ![0, 1024] S64x1024
  slices_S64x4096_o0_2048_S64x1024 : S64x4096.Slices ![0, 2048] S64x1024
  slices_S64x4096_o0_3072_S64x1024 : S64x4096.Slices ![0, 3072] S64x1024
  dot_S64x1024_S1024x4096_S64x4096_1_0_0_1_n_n_wf : DotDims.WF S64x1024 S1024x4096 S64x4096 [1] [0] [0] [1] [] []
  dot_S64x512_S512x4096_S64x4096_1_0_0_1_n_n_wf : DotDims.WF S64x512 S512x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S4096x1024.size a
  hwx0_0 : ∀ i : grid0.Coords, EltTy.bits .f32 = 32 ∨ (Rect.block (s := S4096x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S4096x1024.size a
  hwx0_1 : ∀ i : grid0.Coords, EltTy.bits .f32 = 32 ∨ (Rect.block (s := S4096x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S4096x512.size a
  hwx0_2 : ∀ i : grid0.Coords, EltTy.bits .f32 = 32 ∨ (Rect.block (s := S4096x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S4096x1024.size a
  hwx0_3 : ∀ i : grid0.Coords, EltTy.bits .f32 = 32 ∨ (Rect.block (s := S4096x1024) S64x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S512x4096.size a
  hwx0_5 : ∀ i : grid0.Coords, EltTy.bits .bf16 = 32 ∨ (Rect.block (s := S512x4096) S512x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x4096.size a ≤ S1024x4096.size a
  hwx0_7 : ∀ i : grid0.Coords, EltTy.bits .bf16 = 32 ∨ (Rect.block (s := S1024x4096) S1024x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x4096.size a ≤ S512x4096.size a
  hwx0_8 : ∀ i : grid0.Coords, EltTy.bits .bf16 = 32 ∨ (Rect.block (s := S512x4096) S512x4096.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4096.size a ≤ S1x4096.size a
  hwx0_9 : ∀ i : grid0.Coords, EltTy.bits .f32 = 32 ∨ (Rect.block (s := S1x4096) S1x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x1024.size a ≤ S4096x1024.size a
  hwx0_10 : ∀ i : grid0.Coords, EltTy.bits .f32 = 32 ∨ (Rect.block (s := S4096x1024) S64x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x1024.size a ≤ S4096x1024.size a
  hwx0_11 : ∀ i : grid0.Coords, EltTy.bits .f32 = 32 ∨ (Rect.block (s := S4096x1024) S64x1024.size (cc0_transform_11 i) (hinb0_11 i)).WholeWords (EltTy.packing .f32)

variable [Facts₀]

def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf
def dot_S64x512_S512x4096_S64x4096_1_0_0_1_n_n : DotDims S64x512 S512x4096 S64x4096 where
  lhsContracting := [1]
  rhsContracting := [0]
  lhsNonContracting := [0]
  rhsNonContracting := [1]
  lhsBatch := []
  rhsBatch := []
  wf := dot_S64x512_S512x4096_S64x4096_1_0_0_1_n_n_wf

abbrev win0_0 : Pipeline.Window sig grid0 :=
  Pipeline.Window.ofSpec (Memref.whole main_arg1) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S512x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1024x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S512x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S1x4096.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44_0) S64x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v44_1) S64x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x1024 : Shape := ⟨2, ![4096, 1024]⟩
abbrev S1024x1536 : Shape := ⟨2, ![1024, 1536]⟩
abbrev S1024 : Shape := ⟨1, ![1024]⟩
abbrev S4096x1536 : Shape := ⟨2, ![4096, 1536]⟩
abbrev S4096 : Shape := ⟨1, ![4096]⟩
abbrev S1536x4096 : Shape := ⟨2, ![1536, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 105
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1536, .f32⟩
  | .hbm, ⟨6, _⟩ => ⟨S1024, .f32⟩
  | .hbm, ⟨7, _⟩ => ⟨S1024x1536, .f32⟩
  | .hbm, ⟨8, _⟩ => ⟨S1024, .f32⟩
  | .hbm, ⟨9, _⟩ => ⟨S1024x1536, .f32⟩
  | .hbm, ⟨10, _⟩ => ⟨S1024, .f32⟩
  | .hbm, ⟨11, _⟩ => ⟨S1024x1536, .f32⟩
  | .hbm, ⟨12, _⟩ => ⟨S1024, .f32⟩
  | .hbm, ⟨13, _⟩ => ⟨S1024x1536, .f32⟩
  | .hbm, ⟨14, _⟩ => ⟨S1024, .f32⟩
  | .hbm, ⟨15, _⟩ => ⟨S1024x1536, .f32⟩
  | .hbm, ⟨16, _⟩ => ⟨S1024, .f32⟩
  | .hbm, ⟨17, _⟩ => ⟨S1024x1536, .f32⟩
  | .hbm, ⟨18, _⟩ => ⟨S1024, .f32⟩
  | .hbm, ⟨19, _⟩ => ⟨S1024x1536, .f32⟩
  | .hbm, ⟨20, _⟩ => ⟨S1024, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S4096, .f32⟩
  | .hbm, ⟨25, _⟩ => ⟨S1536x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1536, .f32⟩
  | .hbm, ⟨60, _⟩ => ⟨S4096, .f32⟩
  | .hbm, ⟨61, _⟩ => ⟨S1536x4096, .f32⟩
  | .hbm, ⟨62, _⟩ => ⟨S4096x4096, .f32⟩
  | .hbm, ⟨63, _⟩ => ⟨S1x4096, .f32⟩
  | .hbm, ⟨64, _⟩ => ⟨S4096x4096, .f32⟩
  | .hbm, ⟨65, _⟩ => ⟨S4096x4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]

class Facts₀ : Prop where
  concatenates_S4096x1024_S4096x512_S4096x1536_d1 : Shape.Concatenates [S4096x1024, S4096x512] S4096x1536 1
  concatenates_S1024x1536_S1024x1536_S1024x1536_S1024x1536_S4096x1536_d0 : Shape.Concatenates [S1024x1536, S1024x1536, S1024x1536, S1024x1536] S4096x1536 0
  concatenates_S1024_S1024_S1024_S1024_S4096_d0 : Shape.Concatenates [S1024, S1024, S1024, S1024] S4096 0
  transposes_S4096x1536_S1536x4096_1_0 : S4096x1536.Transposes [1, 0] S1536x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1536_S1536x4096_S4096x4096_1_0_0_1_n_n_wf : DotDims.WF S4096x1536 S1536x4096 S4096x4096 [1] [0] [0] [1] [] []

variable [Facts₀]

def dot_S4096x1536_S1536x4096_S4096x4096_1_0_0_1_n_n : DotDims S4096x1536 S1536x4096 S4096x4096 where
  lhsContracting := [1]
  rhsContracting := [0]
  lhsNonContracting := [0]
  rhsNonContracting := [1]
  lhsBatch := []
  rhsBatch := []
  wf := dot_S4096x1536_S1536x4096_S4096x4096_1_0_0_1_n_n_wf

class Facts : Prop extends Facts₀ where

variable [Facts]
-- ==== Proof.KernelRun.lean ====
/-
  The run of the dual-branch LSTM cell's program: it ends, nothing faults, its arguments are left as they were, and
  its two results are what the grid points wrote.

  The host first lays out each branch's weights (slices, transposes, four-way concatenations, a narrowing) and biases
  into six new arrays; none of these operations writes an argument, so the pallas_call finds every argument as launched.
  The call walks 64 grid points.  Point `t` sees rows `64·t … 64·t + 63` of the two states, of the input and of the old
  cell, and the six laid-out arrays whole (their block index never moves, so they are fetched once).  Its body loads
  the ten blocks whole, computes, and stores one whole block into each of the two results; the blocks of the results
  at the 64 points tile the result arrays.  So after the body each input's staging buffer still holds its block, and
  each result's staging buffer holds the body's stored value as a function of the ten input blocks.
-/
import proofs.«140409_j13769665150976_1_alg».proof.Proof.Gen.Kernel.Launch
import proofs.«140409_j13769665150976_1_alg».proof.Proof.Gen.Kernel.Skeleton
import proofs.«140409_j13769665150976_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the call -/

/-- Core `c`'s TensorCore buffers when the call is entered: after the host's layout operations. -/
abbrev entry (c : Dev nD) (b : Ref sig .tc) : Buf (Elt F) ((c : Thread nD τ).loc b) :=
  StableHlo.after hostOps0 (fun b => m (c, b)) b

/-- The layout operations allocate nothing. -/
theorem hostOps0_fresh : (hostOps0 : List (HloOp τ sig (Elt F))).Forall fun op => op.fresh = ∅ := by
  simp only [List.Forall]; repeat' constructor

/-- The program up to the call is the layout operations, and then the call finds `entry`. -/
theorem upToCall (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that none of the layout operations writes is found as launched. Every operation writes one new array. -/
local macro "not_written" : tactic => `(tactic|
  exact StableHlo.after_of_forall_not_mem _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide))))

theorem entry_arg0 (c : Dev nD) : entry m c main_arg0 = m ((c : Thread nD τ).loc main_arg0) := by not_written
theorem entry_arg1 (c : Dev nD) : entry m c main_arg1 = m ((c : Thread nD τ).loc main_arg1) := by not_written
theorem entry_arg2 (c : Dev nD) : entry m c main_arg2 = m ((c : Thread nD τ).loc main_arg2) := by not_written
theorem entry_arg3 (c : Dev nD) : entry m c main_arg3 = m ((c : Thread nD τ).loc main_arg3) := by not_written
theorem entry_arg4 (c : Dev nD) : entry m c main_arg4 = m ((c : Thread nD τ).loc main_arg4) := by not_written
theorem entry_arg5 (c : Dev nD) : entry m c main_arg5 = m ((c : Thread nD τ).loc main_arg5) := by not_written
theorem entry_arg6 (c : Dev nD) : entry m c main_arg6 = m ((c : Thread nD τ).loc main_arg6) := by not_written
theorem entry_arg7 (c : Dev nD) : entry m c main_arg7 = m ((c : Thread nD τ).loc main_arg7) := by not_written
theorem entry_arg8 (c : Dev nD) : entry m c main_arg8 = m ((c : Thread nD τ).loc main_arg8) := by not_written
theorem entry_arg9 (c : Dev nD) : entry m c main_arg9 = m ((c : Thread nD τ).loc main_arg9) := by not_written
theorem entry_arg10 (c : Dev nD) : entry m c main_arg10 = m ((c : Thread nD τ).loc main_arg10) := by not_written
theorem entry_arg11 (c : Dev nD) : entry m c main_arg11 = m ((c : Thread nD τ).loc main_arg11) := by not_written
theorem entry_arg12 (c : Dev nD) : entry m c main_arg12 = m ((c : Thread nD τ).loc main_arg12) := by not_written
theorem entry_arg13 (c : Dev nD) : entry m c main_arg13 = m ((c : Thread nD τ).loc main_arg13) := by not_written
theorem entry_arg14 (c : Dev nD) : entry m c main_arg14 = m ((c : Thread nD τ).loc main_arg14) := by not_written
theorem entry_arg15 (c : Dev nD) : entry m c main_arg15 = m ((c : Thread nD τ).loc main_arg15) := by not_written
theorem entry_arg16 (c : Dev nD) : entry m c main_arg16 = m ((c : Thread nD τ).loc main_arg16) := by not_written
theorem entry_arg17 (c : Dev nD) : entry m c main_arg17 = m ((c : Thread nD τ).loc main_arg17) := by not_written
theorem entry_arg18 (c : Dev nD) : entry m c main_arg18 = m ((c : Thread nD τ).loc main_arg18) := by not_written
theorem entry_arg19 (c : Dev nD) : entry m c main_arg19 = m ((c : Thread nD τ).loc main_arg19) := by not_written
theorem entry_arg20 (c : Dev nD) : entry m c main_arg20 = m ((c : Thread nD τ).loc main_arg20) := by not_written

/-! ## The blocks -/

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## What the body touches: each buffer whole -/

abbrev whY : Rect S64x512 := Rect.unit (s := S64x512) ![0, 0] S64x512.size inb_S64x512_S64x512_0_0
abbrev whH : Rect S64x1024 := Rect.unit (s := S64x1024) ![0, 0] S64x1024.size inb_S64x1024_S64x1024_0_0
abbrev whWH : Rect S1024x4096 := Rect.unit (s := S1024x4096) ![0, 0] S1024x4096.size inb_S1024x4096_S1024x4096_0_0
abbrev whWY : Rect S512x4096 := Rect.unit (s := S512x4096) ![0, 0] S512x4096.size inb_S512x4096_S512x4096_0_0
abbrev whB : Rect S1x4096 := Rect.unit (s := S1x4096) ![0, 0] S1x4096.size inb_S1x4096_S1x4096_0_0

/-- The new hidden state's staging buffer after the body, from the ten input blocks: its one whole store. -/
def hidOut (x0 x1 : Vec F S64x1024 .f32) (x2 : Vec F S64x512 .f32) (x3 : Vec F S64x1024 .f32)
    (x4 : Vec F S1024x4096 .bf16) (x5 : Vec F S512x4096 .bf16) (x6 : Vec F S1x4096 .f32)
    (x7 : Vec F S1024x4096 .bf16) (x8 : Vec F S512x4096 .bf16) (x9 : Vec F S1x4096 .f32) : Vec F S64x1024 .f32 :=
  View.canon [⟨whH, k0_pay3 (k0_pay4 (View.ld x2 whY)) (View.ld x3 whH)
    (k0_pay6 (View.ld x2 whY) (View.ld x4 whWH) (View.ld x5 whWY) (View.ld x6 whB) (View.ld x0 whH))
    (k0_pay7 (View.ld x2 whY) (View.ld x3 whH) (View.ld x4 whWH) (View.ld x5 whWY) (View.ld x6 whB) (View.ld x0 whH))
    (k0_pay8 (View.ld x8 whWY)) (k0_pay9 (View.ld x9 whB)) (k0_pay10 (View.ld x7 whWH) (View.ld x1 whH))⟩]

/-- The new cell's staging buffer after the body, from the ten input blocks: its one whole store. -/
def cellOut (x0 x1 : Vec F S64x1024 .f32) (x2 : Vec F S64x512 .f32) (x3 : Vec F S64x1024 .f32)
    (x4 : Vec F S1024x4096 .bf16) (x5 : Vec F S512x4096 .bf16) (x6 : Vec F S1x4096 .f32)
    (x7 : Vec F S1024x4096 .bf16) (x8 : Vec F S512x4096 .bf16) (x9 : Vec F S1x4096 .f32) : Vec F S64x1024 .f32 :=
  View.canon [⟨whH, k0_pay2 (k0_pay4 (View.ld x2 whY)) (View.ld x3 whH)
    (k0_pay7 (View.ld x2 whY) (View.ld x3 whH) (View.ld x4 whWH) (View.ld x5 whWY) (View.ld x6 whB) (View.ld x0 whH))
    (k0_pay8 (View.ld x8 whWY)) (k0_pay9 (View.ld x9 whB)) (k0_pay10 (View.ld x7 whWH) (View.ld x1 whH))⟩]

/-- One whole store covers the buffer. -/
theorem covered (p0 : Vec F S64x1024 .f32) (y : S64x1024.Idx) :
    ∃ pc ∈ ([⟨whH, p0⟩] : List (View.Piece (Elt F) S64x1024 .f32)), y ∈ pc.1.set :=
  View.cover_of_tiled [⟨whH, p0⟩] S64x1024.size (by rfl) y

/-! ## The body -/

set_option maxHeartbeats 4000000 in
/-- The body on whole staging buffers, the inputs' holding `x0 … x9` and the results' holding anything, runs to the
    end leaving the inputs' as they were and the results' at `hidOut` and `cellOut` of the inputs. -/
theorem body_runs (c : Dev nD) (E : Set ℕ) (i : grid0.Coords)
    (arg1 : Memref sig .tc .vmem S64x1024 .f32) (harg1 : arg1.IsWhole) (arg2 : Memref sig .tc .vmem S64x1024 .f32) (harg2 : arg2.IsWhole)
    (arg3 : Memref sig .tc .vmem S64x512 .f32) (harg3 : arg3.IsWhole) (arg4 : Memref sig .tc .vmem S64x1024 .f32) (harg4 : arg4.IsWhole)
    (arg5 : Memref sig .tc .vmem S1024x4096 .bf16) (harg5 : arg5.IsWhole) (arg6 : Memref sig .tc .vmem S512x4096 .bf16) (harg6 : arg6.IsWhole)
    (arg7 : Memref sig .tc .vmem S1x4096 .f32) (harg7 : arg7.IsWhole) (arg8 : Memref sig .tc .vmem S1024x4096 .bf16) (harg8 : arg8.IsWhole)
    (arg9 : Memref sig .tc .vmem S512x4096 .bf16) (harg9 : arg9.IsWhole) (arg10 : Memref sig .tc .vmem S1x4096 .f32) (harg10 : arg10.IsWhole)
    (arg11 : Memref sig .tc .vmem S64x1024 .f32) (harg11 : arg11.IsWhole) (arg12 : Memref sig .tc .vmem S64x1024 .f32) (harg12 : arg12.IsWhole)
    (x0 x1 : Vec F S64x1024 .f32) (x2 : Vec F S64x512 .f32) (x3 : Vec F S64x1024 .f32)
    (x4 : Vec F S1024x4096 .bf16) (x5 : Vec F S512x4096 .bf16) (x6 : Vec F S1x4096 .f32)
    (x7 : Vec F S1024x4096 .bf16) (x8 : Vec F S512x4096 .bf16) (x9 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (hidOut x0 x1 x2 x3 x4 x5 x6 x7 x8 x9)
            ∗ owns (c : Thread nD τ) arg12 fullShare (cellOut x0 x1 x2 x3 x4 x5 x6 x7 x8 x9)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (covered _)
  iexists _; isplitr
  swap; · iexact H11
  ipureintro
  exact View.read_writes_eq_canon _ _ _ (covered _)

/-! ## The proof data of the call -/

/-- On core `c`: the arrays as the call finds them; after the body at point `t` each input's buffer at its block and
    each result's at the body's stored value of the ten input blocks; nothing of the body's own is kept between points. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => hidOut (blk m c 0 t) (blk m c 1 t) (blk m c 2 t) (blk m c 3 t) (blk m c 4 t) (blk m c 5 t) (blk m c 6 t) (blk m c 7 t) (blk m c 8 t) (blk m c 9 t)
    | ⟨11, _⟩ => cellOut (blk m c 0 t) (blk m c 1 t) (blk m c 2 t) (blk m c 3 t) (blk m c 4 t) (blk m c 5 t) (blk m c 6 t) (blk m c 7 t) (blk m c 8 t) (blk m c 9 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = blk m c 4 t := by dsimp only [dats]
theorem after_5 (c : Dev nD) (t : Fin cfg0.N) : (dats m 0 c).after 5 t = blk m c 5 t := by dsimp only [dats]
theorem after_6 (c : Dev nD) (t : Fin cfg0.N) : (dats m 0 c).after 6 t = blk m c 6 t := by dsimp only [dats]
theorem after_7 (c : Dev nD) (t : Fin cfg0.N) : (dats m 0 c).after 7 t = blk m c 7 t := by dsimp only [dats]
theorem after_8 (c : Dev nD) (t : Fin cfg0.N) : (dats m 0 c).after 8 t = blk m c 8 t := by dsimp only [dats]
theorem after_9 (c : Dev nD) (t : Fin cfg0.N) : (dats m 0 c).after 9 t = blk m c 9 t := by dsimp only [dats]
theorem after_10 (c : Dev nD) (t : Fin cfg0.N) : (dats m 0 c).after 10 t = hidOut (blk m c 0 t) (blk m c 1 t) (blk m c 2 t) (blk m c 3 t) (blk m c 4 t) (blk m c 5 t) (blk m c 6 t) (blk m c 7 t) (blk m c 8 t) (blk m c 9 t) := by dsimp only [dats]
theorem after_11 (c : Dev nD) (t : Fin cfg0.N) : (dats m 0 c).after 11 t = cellOut (blk m c 0 t) (blk m c 1 t) (blk m c 2 t) (blk m c 3 t) (blk m c 4 t) (blk m c 5 t) (blk m c 6 t) (blk m c 7 t) (blk m c 8 t) (blk m c 9 t) := by dsimp only [dats]

/-! Each input's current staging buffer holds its block at every point, fetched there or not: an unfetched window's
    block index has not moved. -/
theorem before_0 (c : Dev nD) (t : Fin cfg0.N) (d) : (dats m 0 c).before 0 t d = blk m c 0 t :=
  ((dats m 0 c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dats m 0 c).before 1 t d = blk m c 1 t :=
  ((dats m 0 c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dats m 0 c).before 2 t d = blk m c 2 t :=
  ((dats m 0 c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg0.N) (d) : (dats m 0 c).before 3 t d = blk m c 3 t :=
  ((dats m 0 c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg0.N) (d) : (dats m 0 c).before 4 t d = blk m c 4 t :=
  ((dats m 0 c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
theorem before_5 (c : Dev nD) (t : Fin cfg0.N) (d) : (dats m 0 c).before 5 t d = blk m c 5 t :=
  ((dats m 0 c).before_in_eq_fetched 5 rfl (fun _ => rfl) (fun _ _ _ => rfl)
    (fun t => by rw [after_5]; unfold Dat.blockOf blk; rw [A_eq]; try rfl) t d).trans
    (by unfold Dat.fetched Dat.blockOf blk; rw [A_eq]; try rfl)
theorem before_6 (c : Dev nD) (t : Fin cfg0.N) (d) : (dats m 0 c).before 6 t d = blk m c 6 t :=
  ((dats m 0 c).before_in_eq_fetched 6 rfl (fun _ => rfl) (fun _ _ _ => rfl)
    (fun t => by rw [after_6]; unfold Dat.blockOf blk; rw [A_eq]; try rfl) t d).trans
    (by unfold Dat.fetched Dat.blockOf blk; rw [A_eq]; try rfl)
theorem before_7 (c : Dev nD) (t : Fin cfg0.N) (d) : (dats m 0 c).before 7 t d = blk m c 7 t :=
  ((dats m 0 c).before_in_eq_fetched 7 rfl (fun _ => rfl) (fun _ _ _ => rfl)
    (fun t => by rw [after_7]; unfold Dat.blockOf blk; rw [A_eq]; try rfl) t d).trans
    (by unfold Dat.fetched Dat.blockOf blk; rw [A_eq]; try rfl)
theorem before_8 (c : Dev nD) (t : Fin cfg0.N) (d) : (dats m 0 c).before 8 t d = blk m c 8 t :=
  ((dats m 0 c).before_in_eq_fetched 8 rfl (fun _ => rfl) (fun _ _ _ => rfl)
    (fun t => by rw [after_8]; unfold Dat.blockOf blk; rw [A_eq]; try rfl) t d).trans
    (by unfold Dat.fetched Dat.blockOf blk; rw [A_eq]; try rfl)
theorem before_9 (c : Dev nD) (t : Fin cfg0.N) (d) : (dats m 0 c).before 9 t d = blk m c 9 t :=
  ((dats m 0 c).before_in_eq_fetched 9 rfl (fun _ => rfl) (fun _ _ _ => rfl)
    (fun t => by rw [after_9]; unfold Dat.blockOf blk; rw [A_eq]; try rfl) t d).trans
    (by unfold Dat.fetched Dat.blockOf blk; rw [A_eq]; try rfl)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so `body_runs` applies; the invariant and the core's
    dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_runs c Set.univ (grid0.coords t) _ _ _ _ _ _ _ _ _ _ _ _ _ _ _ _ _ _ _ _ _ _ _ _ (blk m c 0 t) (blk m c 1 t) (blk m c 2 t) (blk m c 3 t) (blk m c 4 t) (blk m c 5 t) (blk m c 6 t) (blk m c 7 t) (blk m c 8 t) (blk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's demand on the body, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of the program ends, and in every final state each
    array of the call is what the proof data computes (an input as found, a result its entry contents overwritten by
    what the body left at each write-back) and every other unscoped buffer is as the call found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := upToCall m Variants.none) (hA := A_eq m) (hΦ := fun _ _ => rfl)

/-- The same run, read at the two results and the twenty-one arguments: the results are the proof data's arrays after
    the last point, and every argument is as launched — the four the call stages because an input window never writes
    its array back, the others because neither the layout operations nor the call touch them. -/
theorem run_named : θ_run defs (onTc (τ := τ) (main (F := F))) ⟨m, fun _ => 0, ρ⟩ (fun r => ∀ c : Dev nD,
      r.2.mem ((c.tc : Thread nD τ).loc main_v44_0) = (dats m 0 c).arrAt 10 cfg0.N
      ∧ r.2.mem ((c.tc : Thread nD τ).loc main_v44_1) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c).1 10, (h c).1 11,
      ((h c).1 2).trans (((dats m 0 c).arrAt_in 2 rfl _).trans ((A_eq m c 2).trans (entry_arg0 m c))),
      ((h c).1 0).trans (((dats m 0 c).arrAt_in 0 rfl _).trans ((A_eq m c 0).trans (entry_arg1 m c))),
      ((h c).1 3).trans (((dats m 0 c).arrAt_in 3 rfl _).trans ((A_eq m c 3).trans (entry_arg2 m c))),
      ((h c).1 1).trans (((dats m 0 c).arrAt_in 1 rfl _).trans ((A_eq m c 1).trans (entry_arg3 m c))),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c),
      ((h c).2 main_arg18 (Pipeline.mem_restRefs_of main_arg18 (by decide) (by decide))).trans (entry_arg18 m c),
      ((h c).2 main_arg19 (Pipeline.mem_restRefs_of main_arg19 (by decide) (by decide))).trans (entry_arg19 m c),
      ((h c).2 main_arg20 (Pipeline.mem_restRefs_of main_arg20 (by decide) (by decide))).trans (entry_arg20 m c)⟩)
    (run_main m ρ)

end Cert.Kernel.Run

end
-- ==== Proof.KerRun.lean ====
/-
  The run of the dual-branch LSTM cell's program: it ends, nothing faults, its arguments are left as they were, and
  its two results are what the grid points wrote.

  The host first lays out each branch's weights (slices, transposes, four-way concatenations, a narrowing) and biases
  into six new arrays; none of these operations writes an argument, so the pallas_call finds every argument as launched.
  The call walks 64 grid points.  Point `t` sees rows `64·t … 64·t + 63` of the two states, of the input and of the old
  cell, and the six laid-out arrays whole (their block index never moves, so they are fetched once).  Its body loads
  the ten blocks whole, computes, and stores one whole block into each of the two results; the blocks of the results
  at the 64 points tile the result arrays.  So after the body each input's staging buffer still holds its block, and
  each result's staging buffer holds the body's stored value as a function of the ten input blocks.
-/
import proofs.«140409_j13769665150976_1_alg».proof.Proof.Gen.KernelIdeal.Launch
import proofs.«140409_j13769665150976_1_alg».proof.Proof.Gen.KernelIdeal.Skeleton
import proofs.«140409_j13769665150976_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the call -/

/-- Core `c`'s TensorCore buffers when the call is entered: after the host's layout operations. -/
abbrev entry (c : Dev nD) (b : Ref sig .tc) : Buf (Elt F) ((c : Thread nD τ).loc b) :=
  StableHlo.after hostOps0 (fun b => m (c, b)) b

/-- The layout operations allocate nothing. -/
theorem hostOps0_fresh : (hostOps0 : List (HloOp τ sig (Elt F))).Forall fun op => op.fresh = ∅ := by
  simp only [List.Forall]; repeat' constructor

/-- The program up to the call is the layout operations, and then the call finds `entry`. -/
theorem upToCall (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer that none of the layout operations writes is found as launched. Every operation writes one new array. -/
local macro "not_written" : tactic => `(tactic|
  exact StableHlo.after_of_forall_not_mem _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide))))

theorem entry_arg0 (c : Dev nD) : entry m c main_arg0 = m ((c : Thread nD τ).loc main_arg0) := by not_written
theorem entry_arg1 (c : Dev nD) : entry m c main_arg1 = m ((c : Thread nD τ).loc main_arg1) := by not_written
theorem entry_arg2 (c : Dev nD) : entry m c main_arg2 = m ((c : Thread nD τ).loc main_arg2) := by not_written
theorem entry_arg3 (c : Dev nD) : entry m c main_arg3 = m ((c : Thread nD τ).loc main_arg3) := by not_written
theorem entry_arg4 (c : Dev nD) : entry m c main_arg4 = m ((c : Thread nD τ).loc main_arg4) := by not_written
theorem entry_arg5 (c : Dev nD) : entry m c main_arg5 = m ((c : Thread nD τ).loc main_arg5) := by not_written
theorem entry_arg6 (c : Dev nD) : entry m c main_arg6 = m ((c : Thread nD τ).loc main_arg6) := by not_written
theorem entry_arg7 (c : Dev nD) : entry m c main_arg7 = m ((c : Thread nD τ).loc main_arg7) := by not_written
theorem entry_arg8 (c : Dev nD) : entry m c main_arg8 = m ((c : Thread nD τ).loc main_arg8) := by not_written
theorem entry_arg9 (c : Dev nD) : entry m c main_arg9 = m ((c : Thread nD τ).loc main_arg9) := by not_written
theorem entry_arg10 (c : Dev nD) : entry m c main_arg10 = m ((c : Thread nD τ).loc main_arg10) := by not_written
theorem entry_arg11 (c : Dev nD) : entry m c main_arg11 = m ((c : Thread nD τ).loc main_arg11) := by not_written
theorem entry_arg12 (c : Dev nD) : entry m c main_arg12 = m ((c : Thread nD τ).loc main_arg12) := by not_written
theorem entry_arg13 (c : Dev nD) : entry m c main_arg13 = m ((c : Thread nD τ).loc main_arg13) := by not_written
theorem entry_arg14 (c : Dev nD) : entry m c main_arg14 = m ((c : Thread nD τ).loc main_arg14) := by not_written
theorem entry_arg15 (c : Dev nD) : entry m c main_arg15 = m ((c : Thread nD τ).loc main_arg15) := by not_written
theorem entry_arg16 (c : Dev nD) : entry m c main_arg16 = m ((c : Thread nD τ).loc main_arg16) := by not_written
theorem entry_arg17 (c : Dev nD) : entry m c main_arg17 = m ((c : Thread nD τ).loc main_arg17) := by not_written
theorem entry_arg18 (c : Dev nD) : entry m c main_arg18 = m ((c : Thread nD τ).loc main_arg18) := by not_written
theorem entry_arg19 (c : Dev nD) : entry m c main_arg19 = m ((c : Thread nD τ).loc main_arg19) := by not_written
theorem entry_arg20 (c : Dev nD) : entry m c main_arg20 = m ((c : Thread nD τ).loc main_arg20) := by not_written

/-! ## The blocks -/

/-- Window `w`'s block at point `t`, read off its array as the call finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## What the body touches: each buffer whole -/

abbrev whY : Rect S64x512 := Rect.unit (s := S64x512) ![0, 0] S64x512.size inb_S64x512_S64x512_0_0
abbrev whH : Rect S64x1024 := Rect.unit (s := S64x1024) ![0, 0] S64x1024.size inb_S64x1024_S64x1024_0_0
abbrev whWH : Rect S1024x4096 := Rect.unit (s := S1024x4096) ![0, 0] S1024x4096.size inb_S1024x4096_S1024x4096_0_0
abbrev whWY : Rect S512x4096 := Rect.unit (s := S512x4096) ![0, 0] S512x4096.size inb_S512x4096_S512x4096_0_0
abbrev whB : Rect S1x4096 := Rect.unit (s := S1x4096) ![0, 0] S1x4096.size inb_S1x4096_S1x4096_0_0

/-- The new hidden state's staging buffer after the body, from the ten input blocks: its one whole store. -/
def hidOut (x0 x1 : Vec F S64x1024 .f32) (x2 : Vec F S64x512 .f32) (x3 : Vec F S64x1024 .f32)
    (x4 : Vec F S1024x4096 .bf16) (x5 : Vec F S512x4096 .bf16) (x6 : Vec F S1x4096 .f32)
    (x7 : Vec F S1024x4096 .bf16) (x8 : Vec F S512x4096 .bf16) (x9 : Vec F S1x4096 .f32) : Vec F S64x1024 .f32 :=
  View.canon [⟨whH, k0_pay3 (k0_pay4 (View.ld x2 whY)) (View.ld x3 whH)
    (k0_pay6 (View.ld x2 whY) (View.ld x4 whWH) (View.ld x5 whWY) (View.ld x6 whB) (View.ld x0 whH))
    (k0_pay7 (View.ld x2 whY) (View.ld x3 whH) (View.ld x4 whWH) (View.ld x5 whWY) (View.ld x6 whB) (View.ld x0 whH))
    (k0_pay8 (View.ld x8 whWY)) (k0_pay9 (View.ld x9 whB)) (k0_pay10 (View.ld x7 whWH) (View.ld x1 whH))⟩]

/-- The new cell's staging buffer after the body, from the ten input blocks: its one whole store. -/
def cellOut (x0 x1 : Vec F S64x1024 .f32) (x2 : Vec F S64x512 .f32) (x3 : Vec F S64x1024 .f32)
    (x4 : Vec F S1024x4096 .bf16) (x5 : Vec F S512x4096 .bf16) (x6 : Vec F S1x4096 .f32)
    (x7 : Vec F S1024x4096 .bf16) (x8 : Vec F S512x4096 .bf16) (x9 : Vec F S1x4096 .f32) : Vec F S64x1024 .f32 :=
  View.canon [⟨whH, k0_pay2 (k0_pay4 (View.ld x2 whY)) (View.ld x3 whH)
    (k0_pay7 (View.ld x2 whY) (View.ld x3 whH) (View.ld x4 whWH) (View.ld x5 whWY) (View.ld x6 whB) (View.ld x0 whH))
    (k0_pay8 (View.ld x8 whWY)) (k0_pay9 (View.ld x9 whB)) (k0_pay10 (View.ld x7 whWH) (View.ld x1 whH))⟩]

/-- One whole store covers the buffer. -/
theorem covered (p0 : Vec F S64x1024 .f32) (y : S64x1024.Idx) :
    ∃ pc ∈ ([⟨whH, p0⟩] : List (View.Piece (Elt F) S64x1024 .f32)), y ∈ pc.1.set :=
  View.cover_of_tiled [⟨whH, p0⟩] S64x1024.size (by rfl) y

/-! ## The body -/

set_option maxHeartbeats 4000000 in
/-- The body on whole staging buffers, the inputs' holding `x0 … x9` and the results' holding anything, runs to the
    end leaving the inputs' as they were and the results' at `hidOut` and `cellOut` of the inputs. -/
theorem body_runs (c : Dev nD) (E : Set ℕ) (i : grid0.Coords)
    (arg1 : Memref sig .tc .vmem S64x1024 .f32) (harg1 : arg1.IsWhole) (arg2 : Memref sig .tc .vmem S64x1024 .f32) (harg2 : arg2.IsWhole)
    (arg3 : Memref sig .tc .vmem S64x512 .f32) (harg3 : arg3.IsWhole) (arg4 : Memref sig .tc .vmem S64x1024 .f32) (harg4 : arg4.IsWhole)
    (arg5 : Memref sig .tc .vmem S1024x4096 .bf16) (harg5 : arg5.IsWhole) (arg6 : Memref sig .tc .vmem S512x4096 .bf16) (harg6 : arg6.IsWhole)
    (arg7 : Memref sig .tc .vmem S1x4096 .f32) (harg7 : arg7.IsWhole) (arg8 : Memref sig .tc .vmem S1024x4096 .bf16) (harg8 : arg8.IsWhole)
    (arg9 : Memref sig .tc .vmem S512x4096 .bf16) (harg9 : arg9.IsWhole) (arg10 : Memref sig .tc .vmem S1x4096 .f32) (harg10 : arg10.IsWhole)
    (arg11 : Memref sig .tc .vmem S64x1024 .f32) (harg11 : arg11.IsWhole) (arg12 : Memref sig .tc .vmem S64x1024 .f32) (harg12 : arg12.IsWhole)
    (x0 x1 : Vec F S64x1024 .f32) (x2 : Vec F S64x512 .f32) (x3 : Vec F S64x1024 .f32)
    (x4 : Vec F S1024x4096 .bf16) (x5 : Vec F S512x4096 .bf16) (x6 : Vec F S1x4096 .f32)
    (x7 : Vec F S1024x4096 .bf16) (x8 : Vec F S512x4096 .bf16) (x9 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (hidOut x0 x1 x2 x3 x4 x5 x6 x7 x8 x9)
            ∗ owns (c : Thread nD τ) arg12 fullShare (cellOut x0 x1 x2 x3 x4 x5 x6 x7 x8 x9)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (covered _)
  iexists _; isplitr
  swap; · iexact H11
  ipureintro
  exact View.read_writes_eq_canon _ _ _ (covered _)

/-! ## The proof data of the call -/

/-- On core `c`: the arrays as the call finds them; after the body at point `t` each input's buffer at its block and
    each result's at the body's stored value of the ten input blocks; nothing of the body's own is kept between points. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => hidOut (blk m c 0 t) (blk m c 1 t) (blk m c 2 t) (blk m c 3 t) (blk m c 4 t) (blk m c 5 t) (blk m c 6 t) (blk m c 7 t) (blk m c 8 t) (blk m c 9 t)
    | ⟨11, _⟩ => cellOut (blk m c 0 t) (blk m c 1 t) (blk m c 2 t) (blk m c 3 t) (blk m c 4 t) (blk m c 5 t) (blk m c 6 t) (blk m c 7 t) (blk m c 8 t) (blk m c 9 t)
  Φ _ := Pipeline.ΦA spec0 c
  q _ := fullShare
  owed _ := 0

theorem A_eq (c : Dev nD) (w : Fin cfg0.W) : (dats m 0 c).A w = entry m c (Pipeline.arrRef spec0 w) := by
  dsimp only [dats]

theorem after_0 (c : Dev nD) (t : Fin cfg0.N) : (dats m 0 c).after 0 t = blk m c 0 t := by dsimp only [dats]
theorem after_1 (c : Dev nD) (t : Fin cfg0.N) : (dats m 0 c).after 1 t = blk m c 1 t := by dsimp only [dats]
theorem after_2 (c : Dev nD) (t : Fin cfg0.N) : (dats m 0 c).after 2 t = blk m c 2 t := by dsimp only [dats]
theorem after_3 (c : Dev nD) (t : Fin cfg0.N) : (dats m 0 c).after 3 t = blk m c 3 t := by dsimp only [dats]
theorem after_4 (c : Dev nD) (t : Fin cfg0.N) : (dats m 0 c).after 4 t = blk m c 4 t := by dsimp only [dats]
theorem after_5 (c : Dev nD) (t : Fin cfg0.N) : (dats m 0 c).after 5 t = blk m c 5 t := by dsimp only [dats]
theorem after_6 (c : Dev nD) (t : Fin cfg0.N) : (dats m 0 c).after 6 t = blk m c 6 t := by dsimp only [dats]
theorem after_7 (c : Dev nD) (t : Fin cfg0.N) : (dats m 0 c).after 7 t = blk m c 7 t := by dsimp only [dats]
theorem after_8 (c : Dev nD) (t : Fin cfg0.N) : (dats m 0 c).after 8 t = blk m c 8 t := by dsimp only [dats]
theorem after_9 (c : Dev nD) (t : Fin cfg0.N) : (dats m 0 c).after 9 t = blk m c 9 t := by dsimp only [dats]
theorem after_10 (c : Dev nD) (t : Fin cfg0.N) : (dats m 0 c).after 10 t = hidOut (blk m c 0 t) (blk m c 1 t) (blk m c 2 t) (blk m c 3 t) (blk m c 4 t) (blk m c 5 t) (blk m c 6 t) (blk m c 7 t) (blk m c 8 t) (blk m c 9 t) := by dsimp only [dats]
theorem after_11 (c : Dev nD) (t : Fin cfg0.N) : (dats m 0 c).after 11 t = cellOut (blk m c 0 t) (blk m c 1 t) (blk m c 2 t) (blk m c 3 t) (blk m c 4 t) (blk m c 5 t) (blk m c 6 t) (blk m c 7 t) (blk m c 8 t) (blk m c 9 t) := by dsimp only [dats]

/-! Each input's current staging buffer holds its block at every point, fetched there or not: an unfetched window's
    block index has not moved. -/
theorem before_0 (c : Dev nD) (t : Fin cfg0.N) (d) : (dats m 0 c).before 0 t d = blk m c 0 t :=
  ((dats m 0 c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem before_1 (c : Dev nD) (t : Fin cfg0.N) (d) : (dats m 0 c).before 1 t d = blk m c 1 t :=
  ((dats m 0 c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem before_2 (c : Dev nD) (t : Fin cfg0.N) (d) : (dats m 0 c).before 2 t d = blk m c 2 t :=
  ((dats m 0 c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem before_3 (c : Dev nD) (t : Fin cfg0.N) (d) : (dats m 0 c).before 3 t d = blk m c 3 t :=
  ((dats m 0 c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem before_4 (c : Dev nD) (t : Fin cfg0.N) (d) : (dats m 0 c).before 4 t d = blk m c 4 t :=
  ((dats m 0 c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
theorem before_5 (c : Dev nD) (t : Fin cfg0.N) (d) : (dats m 0 c).before 5 t d = blk m c 5 t :=
  ((dats m 0 c).before_in_eq_fetched 5 rfl (fun _ => rfl) (fun _ _ _ => rfl)
    (fun t => by rw [after_5]; unfold Dat.blockOf blk; rw [A_eq]; try rfl) t d).trans
    (by unfold Dat.fetched Dat.blockOf blk; rw [A_eq]; try rfl)
theorem before_6 (c : Dev nD) (t : Fin cfg0.N) (d) : (dats m 0 c).before 6 t d = blk m c 6 t :=
  ((dats m 0 c).before_in_eq_fetched 6 rfl (fun _ => rfl) (fun _ _ _ => rfl)
    (fun t => by rw [after_6]; unfold Dat.blockOf blk; rw [A_eq]; try rfl) t d).trans
    (by unfold Dat.fetched Dat.blockOf blk; rw [A_eq]; try rfl)
theorem before_7 (c : Dev nD) (t : Fin cfg0.N) (d) : (dats m 0 c).before 7 t d = blk m c 7 t :=
  ((dats m 0 c).before_in_eq_fetched 7 rfl (fun _ => rfl) (fun _ _ _ => rfl)
    (fun t => by rw [after_7]; unfold Dat.blockOf blk; rw [A_eq]; try rfl) t d).trans
    (by unfold Dat.fetched Dat.blockOf blk; rw [A_eq]; try rfl)
theorem before_8 (c : Dev nD) (t : Fin cfg0.N) (d) : (dats m 0 c).before 8 t d = blk m c 8 t :=
  ((dats m 0 c).before_in_eq_fetched 8 rfl (fun _ => rfl) (fun _ _ _ => rfl)
    (fun t => by rw [after_8]; unfold Dat.blockOf blk; rw [A_eq]; try rfl) t d).trans
    (by unfold Dat.fetched Dat.blockOf blk; rw [A_eq]; try rfl)
theorem before_9 (c : Dev nD) (t : Fin cfg0.N) (d) : (dats m 0 c).before 9 t d = blk m c 9 t :=
  ((dats m 0 c).before_in_eq_fetched 9 rfl (fun _ => rfl) (fun _ _ _ => rfl)
    (fun t => by rw [after_9]; unfold Dat.blockOf blk; rw [A_eq]; try rfl) t d).trans
    (by unfold Dat.fetched Dat.blockOf blk; rw [A_eq]; try rfl)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so `body_runs` applies; the invariant and the core's
    dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_runs c Set.univ (grid0.coords t) _ _ _ _ _ _ _ _ _ _ _ _ _ _ _ _ _ _ _ _ _ _ _ _ (blk m c 0 t) (blk m c 1 t) (blk m c 2 t) (blk m c 3 t) (blk m c 4 t) (blk m c 5 t) (blk m c 6 t) (blk m c 7 t) (blk m c 8 t) (blk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's demand on the body, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of the program ends, and in every final state each
    array of the call is what the proof data computes (an input as found, a result its entry contents overwritten by
    what the body left at each write-back) and every other unscoped buffer is as the call found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := upToCall m Variants.none) (hA := A_eq m) (hΦ := fun _ _ => rfl)

/-- The same run, read at the two results and the twenty-one arguments: the results are the proof data's arrays after
    the last point, and every argument is as launched — the four the call stages because an input window never writes
    its array back, the others because neither the layout operations nor the call touch them. -/
theorem run_named : θ_run defs (onTc (τ := τ) (main (F := F))) ⟨m, fun _ => 0, ρ⟩ (fun r => ∀ c : Dev nD,
      r.2.mem ((c.tc : Thread nD τ).loc main_v44_0) = (dats m 0 c).arrAt 10 cfg0.N
      ∧ r.2.mem ((c.tc : Thread nD τ).loc main_v44_1) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c).1 10, (h c).1 11,
      ((h c).1 2).trans (((dats m 0 c).arrAt_in 2 rfl _).trans ((A_eq m c 2).trans (entry_arg0 m c))),
      ((h c).1 0).trans (((dats m 0 c).arrAt_in 0 rfl _).trans ((A_eq m c 0).trans (entry_arg1 m c))),
      ((h c).1 3).trans (((dats m 0 c).arrAt_in 3 rfl _).trans ((A_eq m c 3).trans (entry_arg2 m c))),
      ((h c).1 1).trans (((dats m 0 c).arrAt_in 1 rfl _).trans ((A_eq m c 1).trans (entry_arg3 m c))),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c),
      ((h c).2 main_arg18 (Pipeline.mem_restRefs_of main_arg18 (by decide) (by decide))).trans (entry_arg18 m c),
      ((h c).2 main_arg19 (Pipeline.mem_restRefs_of main_arg19 (by decide) (by decide))).trans (entry_arg19 m c),
      ((h c).2 main_arg20 (Pipeline.mem_restRefs_of main_arg20 (by decide) (by decide))).trans (entry_arg20 m c)⟩)
    (run_main m ρ)

end Cert.KernelIdeal.Run

end
-- ==== Proof.LstmSpec.lean ====
/-
  The dual-branch LSTM cell as ONE function of the argument arrays, on the extended reals.

  For a batch row `r` and a hidden unit `j`, a gate's pre-activation is the state's row against the first 1024
  columns of that gate's weight row, plus the input's row against the last 512 columns, plus the gate's bias.
  Each branch (the light state `hl`, the temp state `ht`, both over the same input `y`) has four gates:
  forget `σ`, input `σ`, candidate `tanh`, output `σ`.  The new cell is
  `((f₁·c + i₁·g₁) + f₂·c) + i₂·g₂` and the new hidden state `(o₁ + o₂) · tanh (new cell)`.
  The sums are written in the order in which the blocked computation adds them.
-/
import Idealize.ShloMosaic.PureOps.Ideal
import Idealize.ShloMosaic.Lib.ValueIdx

noncomputable section

open scoped BigOperators

namespace Cert.LstmSpec

open Idealize.ShloMosaic Idealize.ShloMosaic.ValueIdx

/-- batch × hidden -/
abbrev SBH : Shape := ⟨2, ![4096, 1024]⟩
/-- batch × input -/
abbrev SBI : Shape := ⟨2, ![4096, 512]⟩
/-- one gate's weight: hidden × (hidden + input) -/
abbrev SW : Shape := ⟨2, ![1024, 1536]⟩
/-- one gate's bias -/
abbrev SV : Shape := ⟨1, ![1024]⟩

/-- column `k` of the state part of a weight row -/
abbrev colH (k : Fin 1024) : Fin 1536 := ⟨k.val, by omega⟩
/-- column `k` of the input part of a weight row -/
abbrev colY (k : Fin 512) : Fin 1536 := ⟨1024 + k.val, by omega⟩

/-- A gate's pre-activation at batch row `r`, hidden unit `j`. -/
def gatePre (h : SBH.Idx → EReal) (y : SBI.Idx → EReal) (W : SW.Idx → EReal) (b : SV.Idx → EReal)
    (r : Fin 4096) (j : Fin 1024) : EReal :=
  ((∑ k : Fin 1024, h (ix2 r k) * W (ix2 j (colH k))) + (∑ k : Fin 512, y (ix2 r k) * W (ix2 j (colY k)))) + b (ix1 j)

/-- The arguments of the cell, bundled: the two states, the input, the old cell, and per branch four weights and four biases. -/
structure Args where
  y : SBI.Idx → EReal
  hl : SBH.Idx → EReal
  c : SBH.Idx → EReal
  ht : SBH.Idx → EReal
  wf : SW.Idx → EReal
  bf : SV.Idx → EReal
  wi : SW.Idx → EReal
  bi : SV.Idx → EReal
  wc : SW.Idx → EReal
  bc : SV.Idx → EReal
  wo : SW.Idx → EReal
  bo : SV.Idx → EReal
  wf' : SW.Idx → EReal
  bf' : SV.Idx → EReal
  wi' : SW.Idx → EReal
  bi' : SV.Idx → EReal
  wc' : SW.Idx → EReal
  bc' : SV.Idx → EReal
  wo' : SW.Idx → EReal
  bo' : SV.Idx → EReal

/-- The new cell state at `(r, j)`. -/
def cellNew (a : Args) (r : Fin 4096) (j : Fin 1024) : EReal :=
  ((Ideal.logistic (gatePre a.hl a.y a.wf a.bf r j) * a.c (ix2 r j)
      + Ideal.logistic (gatePre a.hl a.y a.wi a.bi r j) * Ideal.tanh (gatePre a.hl a.y a.wc a.bc r j))
    + Ideal.logistic (gatePre a.ht a.y a.wf' a.bf' r j) * a.c (ix2 r j))
  + Ideal.logistic (gatePre a.ht a.y a.wi' a.bi' r j) * Ideal.tanh (gatePre a.ht a.y a.wc' a.bc' r j)

/-- The new hidden state at `(r, j)`. -/
def hidNew (a : Args) (r : Fin 4096) (j : Fin 1024) : EReal :=
  (Ideal.logistic (gatePre a.hl a.y a.wo a.bo r j) + Ideal.logistic (gatePre a.ht a.y a.wo' a.bo' r j))
    * Ideal.tanh (cellNew a r j)

/-- The new cell state as an array. -/
def cellArr (a : Args) : SBH.Idx → EReal := fun i => cellNew a (i 0) (i 1)
/-- The new hidden state as an array. -/
def hidArr (a : Args) : SBH.Idx → EReal := fun i => hidNew a (i 0) (i 1)

/-! ## The same cell on one batch tile

A grid point sees 64 batch rows, and per branch the four gates' weights laid side by side: a state part of shape
1024 × 4096 and an input part of shape 512 × 4096 whose column `1024·g + j` is gate `g`'s weight row `j` (transposed),
and a bias row of 4096 entries laid out the same way. -/

/-- a tile of batch rows × hidden -/
abbrev TBH : Shape := ⟨2, ![64, 1024]⟩
/-- a tile of batch rows × input -/
abbrev TBI : Shape := ⟨2, ![64, 512]⟩
/-- the four gates' state weights side by side, transposed -/
abbrev SWH : Shape := ⟨2, ![1024, 4096]⟩
/-- the four gates' input weights side by side, transposed -/
abbrev SWY : Shape := ⟨2, ![512, 4096]⟩
/-- the four gates' biases side by side, as one row -/
abbrev SB4 : Shape := ⟨2, ![1, 4096]⟩

/-- column of gate `g`, hidden unit `j`, among the 4096 laid side by side -/
abbrev gcol (g : Fin 4) (j : Fin 1024) : Fin 4096 := ⟨1024 * g.val + j.val, by omega⟩

/-- A pre-activation on the tile: row `p` of the tile, column `q` of the four gates laid side by side. -/
def tilePre (h : TBH.Idx → EReal) (y : TBI.Idx → EReal) (wh : SWH.Idx → EReal) (wy : SWY.Idx → EReal) (b : SB4.Idx → EReal)
    (p : Fin 64) (q : Fin 4096) : EReal :=
  ((∑ k : Fin 1024, h (ix2 p k) * wh (ix2 k q)) + (∑ k : Fin 512, y (ix2 p k) * wy (ix2 k q))) + b (ix2 (0 : Fin 1) q)

/-- The new cell on the tile. -/
def tileCell (hl ht : TBH.Idx → EReal) (y : TBI.Idx → EReal) (c : TBH.Idx → EReal)
    (wh1 : SWH.Idx → EReal) (wy1 : SWY.Idx → EReal) (b1 : SB4.Idx → EReal)
    (wh2 : SWH.Idx → EReal) (wy2 : SWY.Idx → EReal) (b2 : SB4.Idx → EReal) (p : Fin 64) (j : Fin 1024) : EReal :=
  ((Ideal.logistic (tilePre hl y wh1 wy1 b1 p (gcol 0 j)) * c (ix2 p j)
      + Ideal.logistic (tilePre hl y wh1 wy1 b1 p (gcol 1 j)) * Ideal.tanh (tilePre hl y wh1 wy1 b1 p (gcol 2 j)))
    + Ideal.logistic (tilePre ht y wh2 wy2 b2 p (gcol 0 j)) * c (ix2 p j))
  + Ideal.logistic (tilePre ht y wh2 wy2 b2 p (gcol 1 j)) * Ideal.tanh (tilePre ht y wh2 wy2 b2 p (gcol 2 j))

/-- The new hidden state on the tile. -/
def tileHid (hl ht : TBH.Idx → EReal) (y : TBI.Idx → EReal) (c : TBH.Idx → EReal)
    (wh1 : SWH.Idx → EReal) (wy1 : SWY.Idx → EReal) (b1 : SB4.Idx → EReal)
    (wh2 : SWH.Idx → EReal) (wy2 : SWY.Idx → EReal) (b2 : SB4.Idx → EReal) (p : Fin 64) (j : Fin 1024) : EReal :=
  (Ideal.logistic (tilePre hl y wh1 wy1 b1 p (gcol 3 j)) + Ideal.logistic (tilePre ht y wh2 wy2 b2 p (gcol 3 j)))
    * Ideal.tanh (tileCell hl ht y c wh1 wy1 b1 wh2 wy2 b2 p j)

end Cert.LstmSpec

end
-- ==== Proof.KerTile.lean ====
/-
  One batch tile of the cell, element by element.

  A grid point loads ten blocks: the tile's rows of the two states, of the input and of the old cell, and per branch
  the four gates' weights laid side by side (state part, input part) and their biases as one row.  What it stores as
  the new cell and as the new hidden state, read at row `p` of the tile and hidden unit `j`, is the tile form of the
  cell: each gate's pre-activation is a product with the state part plus a product with the input part plus the bias,
  the products being plain sums over the contracted axis on the extended reals.
-/
import proofs.«140409_j13769665150976_1_alg».proof.Proof.Gen.KernelIdeal.Skeleton
import proofs.«140409_j13769665150976_1_alg».proof.Proof.LstmSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.LstmSpec

/-! ## The two products read at an element -/

/-- The state product keeps the output's row on the left operand's axis 0 … -/
private theorem lhsH_0 (i : S64x4096.Idx) (q : dot_S64x1024_S1024x4096_S64x4096_1_0_0_1_n_n.contr.Idx) :
    (dot_S64x1024_S1024x4096_S64x4096_1_0_0_1_n_n.lhsIdx i q 0).val = (i 0).val := by
  unfold DotDims.lhsIdx
  rw [dif_neg (show ¬(0 : Fin S64x1024.rank) ∈ dot_S64x1024_S1024x4096_S64x4096_1_0_0_1_n_n.lhsBatch by decide), dif_pos (show (0 : Fin S64x1024.rank) ∈ dot_S64x1024_S1024x4096_S64x4096_1_0_0_1_n_n.lhsNonContracting by decide)]
  rfl
/-- … and puts the contracted coordinate on its axis 1; -/
private theorem lhsH_1 (i : S64x4096.Idx) (q : dot_S64x1024_S1024x4096_S64x4096_1_0_0_1_n_n.contr.Idx) :
    (dot_S64x1024_S1024x4096_S64x4096_1_0_0_1_n_n.lhsIdx i q 1).val = (q ⟨0, by decide⟩).val :=
  dot_S64x1024_S1024x4096_S64x4096_1_0_0_1_n_n.lhsIdx_val_of_single rfl i q
/-- the right operand has the contracted coordinate on axis 0 … -/
private theorem rhsH_0 (i : S64x4096.Idx) (q : dot_S64x1024_S1024x4096_S64x4096_1_0_0_1_n_n.contr.Idx) :
    (dot_S64x1024_S1024x4096_S64x4096_1_0_0_1_n_n.rhsIdx i q 0).val = (q ⟨0, by decide⟩).val :=
  dot_S64x1024_S1024x4096_S64x4096_1_0_0_1_n_n.rhsIdx_val_of_single rfl i q
/-- … and the output's column on axis 1. -/
private theorem rhsH_1 (i : S64x4096.Idx) (q : dot_S64x1024_S1024x4096_S64x4096_1_0_0_1_n_n.contr.Idx) :
    (dot_S64x1024_S1024x4096_S64x4096_1_0_0_1_n_n.rhsIdx i q 1).val = (i 1).val := by
  unfold DotDims.rhsIdx
  rw [dif_neg (show ¬(1 : Fin S1024x4096.rank) ∈ dot_S64x1024_S1024x4096_S64x4096_1_0_0_1_n_n.rhsBatch by decide), dif_pos (show (1 : Fin S1024x4096.rank) ∈ dot_S64x1024_S1024x4096_S64x4096_1_0_0_1_n_n.rhsNonContracting by decide)]
  rfl

/-- The product with the state part into a zero accumulator, at row `p` and column `q`: the plain sum over the 1024
    contracted coordinates. -/
private theorem matmulH_at (l : FVec Ideal S64x1024 .bf16) (r : FVec Ideal S1024x4096 .bf16) (p : Fin 64) (q : Fin 4096) :
    matmul dot_S64x1024_S1024x4096_S64x4096_1_0_0_1_n_n none l r (constant (F := Ideal) S64x4096 .f32 0x00000000#32) (ix2 p q)
      = ∑ k : Fin 1024, l (ix2 p k) * r (ix2 k q) := by
  refine (Ideal.matmul_constant_zero_apply dot_S64x1024_S1024x4096_S64x4096_1_0_0_1_n_n none l r (ix2 p q)).trans ?_
  rw [← Equiv.sum_comp (contrEquiv1 dot_S64x1024_S1024x4096_S64x4096_1_0_0_1_n_n 1024 rfl rfl).symm]
  refine Finset.sum_congr rfl fun k _ => ?_
  have hk := contrEquiv1_symm_val dot_S64x1024_S1024x4096_S64x4096_1_0_0_1_n_n 1024 rfl rfl k
  have el : dot_S64x1024_S1024x4096_S64x4096_1_0_0_1_n_n.lhsIdx (ix2 p q) ((contrEquiv1 dot_S64x1024_S1024x4096_S64x4096_1_0_0_1_n_n 1024 rfl rfl).symm k) = ix2 p k := funext fun a => Fin.ext (by
    match a with
    | ⟨0, _⟩ => exact lhsH_0 _ _
    | ⟨1, _⟩ => exact (lhsH_1 _ _).trans hk)
  have er : dot_S64x1024_S1024x4096_S64x4096_1_0_0_1_n_n.rhsIdx (ix2 p q) ((contrEquiv1 dot_S64x1024_S1024x4096_S64x4096_1_0_0_1_n_n 1024 rfl rfl).symm k) = ix2 k q := funext fun a => Fin.ext (by
    match a with
    | ⟨0, _⟩ => exact (rhsH_0 _ _).trans hk
    | ⟨1, _⟩ => exact rhsH_1 _ _)
  rw [el, er]

/-- The input product keeps the output's row on the left operand's axis 0 … -/
private theorem lhsY_0 (i : S64x4096.Idx) (q : dot_S64x512_S512x4096_S64x4096_1_0_0_1_n_n.contr.Idx) :
    (dot_S64x512_S512x4096_S64x4096_1_0_0_1_n_n.lhsIdx i q 0).val = (i 0).val := by
  unfold DotDims.lhsIdx
  rw [dif_neg (show ¬(0 : Fin S64x512.rank) ∈ dot_S64x512_S512x4096_S64x4096_1_0_0_1_n_n.lhsBatch by decide), dif_pos (show (0 : Fin S64x512.rank) ∈ dot_S64x512_S512x4096_S64x4096_1_0_0_1_n_n.lhsNonContracting by decide)]
  rfl
/-- … and puts the contracted coordinate on its axis 1; -/
private theorem lhsY_1 (i : S64x4096.Idx) (q : dot_S64x512_S512x4096_S64x4096_1_0_0_1_n_n.contr.Idx) :
    (dot_S64x512_S512x4096_S64x4096_1_0_0_1_n_n.lhsIdx i q 1).val = (q ⟨0, by decide⟩).val :=
  dot_S64x512_S512x4096_S64x4096_1_0_0_1_n_n.lhsIdx_val_of_single rfl i q
/-- the right operand has the contracted coordinate on axis 0 … -/
private theorem rhsY_0 (i : S64x4096.Idx) (q : dot_S64x512_S512x4096_S64x4096_1_0_0_1_n_n.contr.Idx) :
    (dot_S64x512_S512x4096_S64x4096_1_0_0_1_n_n.rhsIdx i q 0).val = (q ⟨0, by decide⟩).val :=
  dot_S64x512_S512x4096_S64x4096_1_0_0_1_n_n.rhsIdx_val_of_single rfl i q
/-- … and the output's column on axis 1. -/
private theorem rhsY_1 (i : S64x4096.Idx) (q : dot_S64x512_S512x4096_S64x4096_1_0_0_1_n_n.contr.Idx) :
    (dot_S64x512_S512x4096_S64x4096_1_0_0_1_n_n.rhsIdx i q 1).val = (i 1).val := by
  unfold DotDims.rhsIdx
  rw [dif_neg (show ¬(1 : Fin S512x4096.rank) ∈ dot_S64x512_S512x4096_S64x4096_1_0_0_1_n_n.rhsBatch by decide), dif_pos (show (1 : Fin S512x4096.rank) ∈ dot_S64x512_S512x4096_S64x4096_1_0_0_1_n_n.rhsNonContracting by decide)]
  rfl

/-- The product with the input part into a zero accumulator, at row `p` and column `q`: the plain sum over the 512
    contracted coordinates. -/
private theorem matmulY_at (l : FVec Ideal S64x512 .bf16) (r : FVec Ideal S512x4096 .bf16) (p : Fin 64) (q : Fin 4096) :
    matmul dot_S64x512_S512x4096_S64x4096_1_0_0_1_n_n none l r (constant (F := Ideal) S64x4096 .f32 0x00000000#32) (ix2 p q)
      = ∑ k : Fin 512, l (ix2 p k) * r (ix2 k q) := by
  refine (Ideal.matmul_constant_zero_apply dot_S64x512_S512x4096_S64x4096_1_0_0_1_n_n none l r (ix2 p q)).trans ?_
  rw [← Equiv.sum_comp (contrEquiv1 dot_S64x512_S512x4096_S64x4096_1_0_0_1_n_n 512 rfl rfl).symm]
  refine Finset.sum_congr rfl fun k _ => ?_
  have hk := contrEquiv1_symm_val dot_S64x512_S512x4096_S64x4096_1_0_0_1_n_n 512 rfl rfl k
  have el : dot_S64x512_S512x4096_S64x4096_1_0_0_1_n_n.lhsIdx (ix2 p q) ((contrEquiv1 dot_S64x512_S512x4096_S64x4096_1_0_0_1_n_n 512 rfl rfl).symm k) = ix2 p k := funext fun a => Fin.ext (by
    match a with
    | ⟨0, _⟩ => exact lhsY_0 _ _
    | ⟨1, _⟩ => exact (lhsY_1 _ _).trans hk)
  have er : dot_S64x512_S512x4096_S64x4096_1_0_0_1_n_n.rhsIdx (ix2 p q) ((contrEquiv1 dot_S64x512_S512x4096_S64x4096_1_0_0_1_n_n 512 rfl rfl).symm k) = ix2 k q := funext fun a => Fin.ext (by
    match a with
    | ⟨0, _⟩ => exact (rhsY_0 _ _).trans hk
    | ⟨1, _⟩ => exact rhsY_1 _ _)
  rw [el, er]

/-! ## A pre-activation read at an element -/

/-- The product with the state part plus the product with the input part plus the bias row broadcast over the rows,
    at row `p` and column `q`, is the tile's pre-activation there. -/
private theorem pre_at (h : FVec Ideal S64x1024 .bf16) (y : FVec Ideal S64x512 .bf16)
    (wh : FVec Ideal S1024x4096 .bf16) (wy : FVec Ideal S512x4096 .bf16) (b : FVec Ideal S1x4096 .f32)
    (p : Fin 64) (q : Fin 4096) :
    addf (addf (matmul dot_S64x1024_S1024x4096_S64x4096_1_0_0_1_n_n none h wh (constant (F := Ideal) S64x4096 .f32 0x00000000#32))
               (matmul dot_S64x512_S512x4096_S64x4096_1_0_0_1_n_n none y wy (constant (F := Ideal) S64x4096 .f32 0x00000000#32)))
         (broadcastTo S64x4096 b broadcasts_S1x4096_S64x4096) (ix2 p q)
      = tilePre h y wh wy b p q := by
  unfold tilePre
  rw [addf_apply, addf_apply, matmulH_at, matmulY_at, broadcastTo_1b_ab_apply]

/-! ## The four gates' columns

The 4096 columns hold the four gates side by side; the slice from column `1024·g` read at `(p, j)` is the block at
`(p, 1024·g + j)`. -/

private theorem gate0_at (P : FVec Ideal S64x4096 .f32) (p : Fin 64) (j : Fin 1024) :
    (extractStridedSlice S64x1024 ![0, 0] P slices_S64x4096_o0_0_S64x1024) (ix2 p j) = P (ix2 p (gcol 0 j)) :=
  slice2_axis1_apply 0 P _ p j (gcol 0 j) rfl
private theorem gate1_at (P : FVec Ideal S64x4096 .f32) (p : Fin 64) (j : Fin 1024) :
    (extractStridedSlice S64x1024 ![0, 1024] P slices_S64x4096_o0_1024_S64x1024) (ix2 p j) = P (ix2 p (gcol 1 j)) :=
  slice2_axis1_apply 1024 P _ p j (gcol 1 j) rfl
private theorem gate2_at (P : FVec Ideal S64x4096 .f32) (p : Fin 64) (j : Fin 1024) :
    (extractStridedSlice S64x1024 ![0, 2048] P slices_S64x4096_o0_2048_S64x1024) (ix2 p j) = P (ix2 p (gcol 2 j)) :=
  slice2_axis1_apply 2048 P _ p j (gcol 2 j) rfl
private theorem gate3_at (P : FVec Ideal S64x4096 .f32) (p : Fin 64) (j : Fin 1024) :
    (extractStridedSlice S64x1024 ![0, 3072] P slices_S64x4096_o0_3072_S64x1024) (ix2 p j) = P (ix2 p (gcol 3 j)) :=
  slice2_axis1_apply 3072 P _ p j (gcol 3 j) rfl

/-! ## The gates combined, over a pre-activation block `P` -/

/-- One branch's share of the new cell: forget gate times the old cell plus input gate times candidate. -/
private theorem share_at (P : FVec Ideal S64x4096 .f32) (c : FVec Ideal S64x1024 .f32) (p : Fin 64) (j : Fin 1024) :
    addf (mulf (logistic (extractStridedSlice S64x1024 ![0, 0] P slices_S64x4096_o0_0_S64x1024)) c)
         (mulf (logistic (extractStridedSlice S64x1024 ![0, 1024] P slices_S64x4096_o0_1024_S64x1024)) (tanh (extractStridedSlice S64x1024 ![0, 2048] P slices_S64x4096_o0_2048_S64x1024))) (ix2 p j)
      = Ideal.logistic (P (ix2 p (gcol 0 j))) * c (ix2 p j)
        + Ideal.logistic (P (ix2 p (gcol 1 j))) * Ideal.tanh (P (ix2 p (gcol 2 j))) := by
  rw [← gate0_at P p j, ← gate1_at P p j, ← gate2_at P p j]
  rfl

/-- The second branch's share added, term by term, to a value `a` already there. -/
private theorem shareAdd_at (P : FVec Ideal S64x4096 .f32) (c a : FVec Ideal S64x1024 .f32) (p : Fin 64) (j : Fin 1024) :
    addf (addf a (mulf (logistic (extractStridedSlice S64x1024 ![0, 0] P slices_S64x4096_o0_0_S64x1024)) c))
         (mulf (logistic (extractStridedSlice S64x1024 ![0, 1024] P slices_S64x4096_o0_1024_S64x1024)) (tanh (extractStridedSlice S64x1024 ![0, 2048] P slices_S64x4096_o0_2048_S64x1024))) (ix2 p j)
      = (a (ix2 p j) + Ideal.logistic (P (ix2 p (gcol 0 j))) * c (ix2 p j))
        + Ideal.logistic (P (ix2 p (gcol 1 j))) * Ideal.tanh (P (ix2 p (gcol 2 j))) := by
  rw [← gate0_at P p j, ← gate1_at P p j, ← gate2_at P p j]
  rfl

/-- An output gate. -/
private theorem out_at (P : FVec Ideal S64x4096 .f32) (p : Fin 64) (j : Fin 1024) :
    logistic (extractStridedSlice S64x1024 ![0, 3072] P slices_S64x4096_o0_3072_S64x1024) (ix2 p j) = Ideal.logistic (P (ix2 p (gcol 3 j))) := by
  rw [← gate3_at P p j]
  rfl

/-- The new hidden state from its parts: the two output gates' sum times the squashed cell. -/
private theorem hid_at (P : FVec Ideal S64x4096 .f32) (o C : FVec Ideal S64x1024 .f32) (p : Fin 64) (j : Fin 1024) :
    mulf (addf o (logistic (extractStridedSlice S64x1024 ![0, 3072] P slices_S64x4096_o0_3072_S64x1024))) (tanh C) (ix2 p j)
      = (o (ix2 p j) + Ideal.logistic (P (ix2 p (gcol 3 j)))) * Ideal.tanh (C (ix2 p j)) := by
  rw [← gate3_at P p j]
  rfl

/-! ## The two branches' pre-activation blocks -/

/-- The narrowing of a block to the products' operand format changes no value. -/
private theorem narrow_eq {s : Shape} (v : FVec Ideal s .f32) (h : FTy.bits .bf16 < FTy.bits .f32) :
    (truncf .bf16 v h : FVec Ideal s .bf16) = v := rfl

/-- The first branch's block of pre-activations. -/
private theorem pre1_at (hl : Vec Ideal S64x1024 .f32) (y : Vec Ideal S64x512 .f32)
    (wh1 : Vec Ideal S1024x4096 .bf16) (wy1 : Vec Ideal S512x4096 .bf16) (b1 : Vec Ideal S1x4096 .f32)
    (p : Fin 64) (q : Fin 4096) :
    k0_pay5 y wh1 wy1 b1 hl (ix2 p q) = tilePre hl y wh1 wy1 b1 p q := by
  unfold k0_pay5 k0_pay4
  simp only [shapeCast_self, narrow_eq]
  exact pre_at hl y wh1 wy1 b1 p q

/-- The second branch's block of pre-activations. -/
private theorem pre2_at (ht : Vec Ideal S64x1024 .f32) (y : Vec Ideal S64x512 .f32)
    (wh2 : Vec Ideal S1024x4096 .bf16) (wy2 : Vec Ideal S512x4096 .bf16) (b2 : Vec Ideal S1x4096 .f32)
    (p : Fin 64) (q : Fin 4096) :
    k0_pay1 (k0_pay4 y) (k0_pay8 wy2) (k0_pay9 b2) (k0_pay10 wh2 ht) (ix2 p q) = tilePre ht y wh2 wy2 b2 p q := by
  unfold k0_pay1 k0_pay4 k0_pay8 k0_pay9 k0_pay10
  simp only [shapeCast_self, narrow_eq]
  exact pre_at ht y wh2 wy2 b2 p q

/-- What a grid point stores as the new cell, from the ten blocks it loads. -/
def storedCell (hl ht : Vec Ideal S64x1024 .f32) (y : Vec Ideal S64x512 .f32) (c : Vec Ideal S64x1024 .f32)
    (wh1 : Vec Ideal S1024x4096 .bf16) (wy1 : Vec Ideal S512x4096 .bf16) (b1 : Vec Ideal S1x4096 .f32)
    (wh2 : Vec Ideal S1024x4096 .bf16) (wy2 : Vec Ideal S512x4096 .bf16) (b2 : Vec Ideal S1x4096 .f32) :
    FVec Ideal S64x1024 .f32 :=
  k0_pay2 (k0_pay4 y) c (k0_pay7 y c wh1 wy1 b1 hl) (k0_pay8 wy2) (k0_pay9 b2) (k0_pay10 wh2 ht)

/-- What a grid point stores as the new hidden state, from the ten blocks it loads. -/
def storedHid (hl ht : Vec Ideal S64x1024 .f32) (y : Vec Ideal S64x512 .f32) (c : Vec Ideal S64x1024 .f32)
    (wh1 : Vec Ideal S1024x4096 .bf16) (wy1 : Vec Ideal S512x4096 .bf16) (b1 : Vec Ideal S1x4096 .f32)
    (wh2 : Vec Ideal S1024x4096 .bf16) (wy2 : Vec Ideal S512x4096 .bf16) (b2 : Vec Ideal S1x4096 .f32) :
    FVec Ideal S64x1024 .f32 :=
  k0_pay3 (k0_pay4 y) c (k0_pay6 y wh1 wy1 b1 hl) (k0_pay7 y c wh1 wy1 b1 hl) (k0_pay8 wy2) (k0_pay9 b2) (k0_pay10 wh2 ht)

/-- The stored cell at row `p`, hidden unit `j` is the tile form of the new cell. -/
theorem storedCell_at (hl ht : Vec Ideal S64x1024 .f32) (y : Vec Ideal S64x512 .f32) (c : Vec Ideal S64x1024 .f32)
    (wh1 : Vec Ideal S1024x4096 .bf16) (wy1 : Vec Ideal S512x4096 .bf16) (b1 : Vec Ideal S1x4096 .f32)
    (wh2 : Vec Ideal S1024x4096 .bf16) (wy2 : Vec Ideal S512x4096 .bf16) (b2 : Vec Ideal S1x4096 .f32)
    (p : Fin 64) (j : Fin 1024) :
    storedCell hl ht y c wh1 wy1 b1 wh2 wy2 b2 (ix2 p j) = tileCell hl ht y c wh1 wy1 b1 wh2 wy2 b2 p j := by
  unfold storedCell tileCell
  refine (shareAdd_at (k0_pay1 (k0_pay4 y) (k0_pay8 wy2) (k0_pay9 b2) (k0_pay10 wh2 ht)) c
    (k0_pay7 y c wh1 wy1 b1 hl) p j).trans ?_
  rw [pre2_at, pre2_at, pre2_at]
  refine congrArg (fun t => (t + _) + _) ?_
  refine (share_at (k0_pay5 y wh1 wy1 b1 hl) c p j).trans ?_
  rw [pre1_at, pre1_at, pre1_at]

/-- The stored hidden state at row `p`, hidden unit `j` is the tile form of the new hidden state. -/
theorem storedHid_at (hl ht : Vec Ideal S64x1024 .f32) (y : Vec Ideal S64x512 .f32) (c : Vec Ideal S64x1024 .f32)
    (wh1 : Vec Ideal S1024x4096 .bf16) (wy1 : Vec Ideal S512x4096 .bf16) (b1 : Vec Ideal S1x4096 .f32)
    (wh2 : Vec Ideal S1024x4096 .bf16) (wy2 : Vec Ideal S512x4096 .bf16) (b2 : Vec Ideal S1x4096 .f32)
    (p : Fin 64) (j : Fin 1024) :
    storedHid hl ht y c wh1 wy1 b1 wh2 wy2 b2 (ix2 p j) = tileHid hl ht y c wh1 wy1 b1 wh2 wy2 b2 p j := by
  unfold storedHid tileHid
  refine (hid_at (k0_pay1 (k0_pay4 y) (k0_pay8 wy2) (k0_pay9 b2) (k0_pay10 wh2 ht))
    (k0_pay6 y wh1 wy1 b1 hl)
    (k0_pay2 (k0_pay4 y) c (k0_pay7 y c wh1 wy1 b1 hl) (k0_pay8 wy2) (k0_pay9 b2) (k0_pay10 wh2 ht)) p j).trans ?_
  rw [pre2_at,
    show k0_pay6 y wh1 wy1 b1 hl (ix2 p j) = _ from out_at (k0_pay5 y wh1 wy1 b1 hl) p j, pre1_at,
    show k0_pay2 (k0_pay4 y) c (k0_pay7 y c wh1 wy1 b1 hl) (k0_pay8 wy2) (k0_pay9 b2) (k0_pay10 wh2 ht) (ix2 p j) = _
      from storedCell_at hl ht y c wh1 wy1 b1 wh2 wy2 b2 p j]

end Cert.KernelIdeal.Tile

end
-- ==== Proof.KerPrep.lean ====
/-
  The weights and biases as the pallas_call finds them.

  Before the call the host lays each branch's four gate weights side by side: the state part of gate `g`'s weight
  (its first 1024 columns), transposed, becomes columns `1024·g … 1024·g + 1023` of a 1024 × 4096 array; the input
  part (its last 512 columns), transposed, the same columns of a 512 × 4096 array; the four biases become one row of
  4096 entries.  Narrowing to a shorter float format is the identity on the extended reals.  So entry `(k, 1024·g + j)`
  of the state array is entry `(j, k)` of gate `g`'s weight, entry `(k, 1024·g + j)` of the input array is entry
  `(j, 1024 + k)` of it, and entry `1024·g + j` of the bias row is entry `j` of gate `g`'s bias.
-/
import proofs.«140409_j13769665150976_1_alg».proof.Proof.Gen.KernelIdeal.Launch
import proofs.«140409_j13769665150976_1_alg».proof.Proof.LstmSpec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Prep

open Idealize.ShloMosaic Idealize.ShloMosaic.TcCoe Idealize.ShloMosaic.ValueIdx Idealize.SL.Sem
open Cert.KernelIdeal Cert.KernelIdeal.Gen Cert.LstmSpec

/-! ## The three layouts, over any four arrays -/

/-- The state array read at an index.  Narrowing is the identity; column `1024·g + j` lies in the span of piece `g`, at
    column `j` of it; the transpose swaps the two coordinates; the slice starts at column 0.  So entry `(k, 1024·g + j)`
    is `w g` at `(j, k)`. -/
private theorem stateLayout (w : Fin 4 → FVec Ideal S1024x1536 .f32) (k : Fin 1024) (g : Fin 4) (j : Fin 1024) :
    (truncf .bf16 (concatenate S1024x4096 1
        [⟨S1024x1024, transpose S1024x1024 [1, 0] (extractStridedSlice S1024x1024 ![0, 0] (w 0) slices_S1024x1536_S1024x1024_0_0) transposes_S1024x1024_S1024x1024_1_0⟩,
         ⟨S1024x1024, transpose S1024x1024 [1, 0] (extractStridedSlice S1024x1024 ![0, 0] (w 1) slices_S1024x1536_S1024x1024_0_0) transposes_S1024x1024_S1024x1024_1_0⟩,
         ⟨S1024x1024, transpose S1024x1024 [1, 0] (extractStridedSlice S1024x1024 ![0, 0] (w 2) slices_S1024x1536_S1024x1024_0_0) transposes_S1024x1024_S1024x1024_1_0⟩,
         ⟨S1024x1024, transpose S1024x1024 [1, 0] (extractStridedSlice S1024x1024 ![0, 0] (w 3) slices_S1024x1536_S1024x1024_0_0) transposes_S1024x1024_S1024x1024_1_0⟩]
        concatenates_S1024x1024_S1024x1024_S1024x1024_S1024x1024_S1024x4096_d1) bitsLt_bf16_f32 : FVec Ideal S1024x4096 .bf16)
      (ix2 k (gcol g j)) = w g (ix2 j (colH k)) := by
  rw [truncf_apply]
  -- one piece at `(k, j)`: the transpose reads `(j, k)` of the slice, the slice reads `(j, 0 + k)` of the weight
  have piece : ∀ x : FVec Ideal S1024x1536 .f32,
      transpose S1024x1024 [1, 0] (extractStridedSlice S1024x1024 ![0, 0] x slices_S1024x1536_S1024x1024_0_0) transposes_S1024x1024_S1024x1024_1_0 (ix2 k j)
        = x (ix2 j (colH k)) := fun x => by
    refine (transpose_apply [1, 0] _ transposes_S1024x1024_S1024x1024_1_0 (ix2 k j) (ix2 j k) (fun b => ?_)).trans ?_
    · match b with
      | ⟨0, _⟩ => rfl
      | ⟨1, _⟩ => rfl
    · refine extractStridedSlice_apply ![0, 0] x slices_S1024x1536_S1024x1024_0_0 (ix2 j k) (ix2 j (colH k)) (fun a => ?_)
      match a with
      | ⟨0, _⟩ => show j.val = 0 + j.val; omega
      | ⟨1, _⟩ => show k.val = 0 + k.val; omega
  -- the piece whose span holds column `1024·g + j` is piece `g`, the `1024·g` columns before it skipped
  match g with
  | 0 =>
    refine Eq.trans (concatenate_apply_piece (1 : Fin 2) _ _ (ix2 k (gcol 0 j)) 0 ?_ S1024x1024 _ rfl rfl 0 rfl (ix2 k j) (fun b hb => ?_) ?_) (piece (w 0))
    · show (0 : Nat) < 4; decide
    · match b with
      | ⟨0, _⟩ => rfl
      | ⟨1, _⟩ => exact absurd rfl hb
    · show 0 + j.val = 1024 * 0 + j.val; omega
  | 1 =>
    refine Eq.trans (concatenate_apply_piece (1 : Fin 2) _ _ (ix2 k (gcol 1 j)) 1 ?_ S1024x1024 _ rfl rfl 1024 rfl (ix2 k j) (fun b hb => ?_) ?_) (piece (w 1))
    · show (1 : Nat) < 4; decide
    · match b with
      | ⟨0, _⟩ => rfl
      | ⟨1, _⟩ => exact absurd rfl hb
    · show 1024 + j.val = 1024 * 1 + j.val; omega
  | 2 =>
    refine Eq.trans (concatenate_apply_piece (1 : Fin 2) _ _ (ix2 k (gcol 2 j)) 2 ?_ S1024x1024 _ rfl rfl 2048 rfl (ix2 k j) (fun b hb => ?_) ?_) (piece (w 2))
    · show (2 : Nat) < 4; decide
    · match b with
      | ⟨0, _⟩ => rfl
      | ⟨1, _⟩ => exact absurd rfl hb
    · show 2048 + j.val = 1024 * 2 + j.val; omega
  | 3 =>
    refine Eq.trans (concatenate_apply_piece (1 : Fin 2) _ _ (ix2 k (gcol 3 j)) 3 ?_ S1024x1024 _ rfl rfl 3072 rfl (ix2 k j) (fun b hb => ?_) ?_) (piece (w 3))
    · show (3 : Nat) < 4; decide
    · match b with
      | ⟨0, _⟩ => rfl
      | ⟨1, _⟩ => exact absurd rfl hb
    · show 3072 + j.val = 1024 * 3 + j.val; omega

/-- The input array read at an index: as for the state array, the slice now starting at column 1024.  So entry
    `(k, 1024·g + j)` is `w g` at `(j, 1024 + k)`. -/
private theorem inputLayout (w : Fin 4 → FVec Ideal S1024x1536 .f32) (k : Fin 512) (g : Fin 4) (j : Fin 1024) :
    (truncf .bf16 (concatenate S512x4096 1
        [⟨S512x1024, transpose S512x1024 [1, 0] (extractStridedSlice S1024x512 ![0, 1024] (w 0) slices_S1024x1536_S1024x512_0_1024) transposes_S1024x512_S512x1024_1_0⟩,
         ⟨S512x1024, transpose S512x1024 [1, 0] (extractStridedSlice S1024x512 ![0, 1024] (w 1) slices_S1024x1536_S1024x512_0_1024) transposes_S1024x512_S512x1024_1_0⟩,
         ⟨S512x1024, transpose S512x1024 [1, 0] (extractStridedSlice S1024x512 ![0, 1024] (w 2) slices_S1024x1536_S1024x512_0_1024) transposes_S1024x512_S512x1024_1_0⟩,
         ⟨S512x1024, transpose S512x1024 [1, 0] (extractStridedSlice S1024x512 ![0, 1024] (w 3) slices_S1024x1536_S1024x512_0_1024) transposes_S1024x512_S512x1024_1_0⟩]
        concatenates_S512x1024_S512x1024_S512x1024_S512x1024_S512x4096_d1) bitsLt_bf16_f32 : FVec Ideal S512x4096 .bf16)
      (ix2 k (gcol g j)) = w g (ix2 j (colY k)) := by
  rw [truncf_apply]
  -- one piece at `(k, j)`: the transpose reads `(j, k)` of the slice, the slice reads `(j, 1024 + k)` of the weight
  have piece : ∀ x : FVec Ideal S1024x1536 .f32,
      transpose S512x1024 [1, 0] (extractStridedSlice S1024x512 ![0, 1024] x slices_S1024x1536_S1024x512_0_1024) transposes_S1024x512_S512x1024_1_0 (ix2 k j)
        = x (ix2 j (colY k)) := fun x => by
    refine (transpose_apply [1, 0] _ transposes_S1024x512_S512x1024_1_0 (ix2 k j) (ix2 j k) (fun b => ?_)).trans ?_
    · match b with
      | ⟨0, _⟩ => rfl
      | ⟨1, _⟩ => rfl
    · refine extractStridedSlice_apply ![0, 1024] x slices_S1024x1536_S1024x512_0_1024 (ix2 j k) (ix2 j (colY k)) (fun a => ?_)
      match a with
      | ⟨0, _⟩ => show j.val = 0 + j.val; omega
      | ⟨1, _⟩ => rfl
  match g with
  | 0 =>
    refine Eq.trans (concatenate_apply_piece (1 : Fin 2) _ _ (ix2 k (gcol 0 j)) 0 ?_ S512x1024 _ rfl rfl 0 rfl (ix2 k j) (fun b hb => ?_) ?_) (piece (w 0))
    · show (0 : Nat) < 4; decide
    · match b with
      | ⟨0, _⟩ => rfl
      | ⟨1, _⟩ => exact absurd rfl hb
    · show 0 + j.val = 1024 * 0 + j.val; omega
  | 1 =>
    refine Eq.trans (concatenate_apply_piece (1 : Fin 2) _ _ (ix2 k (gcol 1 j)) 1 ?_ S512x1024 _ rfl rfl 1024 rfl (ix2 k j) (fun b hb => ?_) ?_) (piece (w 1))
    · show (1 : Nat) < 4; decide
    · match b with
      | ⟨0, _⟩ => rfl
      | ⟨1, _⟩ => exact absurd rfl hb
    · show 1024 + j.val = 1024 * 1 + j.val; omega
  | 2 =>
    refine Eq.trans (concatenate_apply_piece (1 : Fin 2) _ _ (ix2 k (gcol 2 j)) 2 ?_ S512x1024 _ rfl rfl 2048 rfl (ix2 k j) (fun b hb => ?_) ?_) (piece (w 2))
    · show (2 : Nat) < 4; decide
    · match b with
      | ⟨0, _⟩ => rfl
      | ⟨1, _⟩ => exact absurd rfl hb
    · show 2048 + j.val = 1024 * 2 + j.val; omega
  | 3 =>
    refine Eq.trans (concatenate_apply_piece (1 : Fin 2) _ _ (ix2 k (gcol 3 j)) 3 ?_ S512x1024 _ rfl rfl 3072 rfl (ix2 k j) (fun b hb => ?_) ?_) (piece (w 3))
    · show (3 : Nat) < 4; decide
    · match b with
      | ⟨0, _⟩ => rfl
      | ⟨1, _⟩ => exact absurd rfl hb
    · show 3072 + j.val = 1024 * 3 + j.val; omega

/-- The bias row read at an index.  Entry `(0, q)` of the row has row-major position `0·4096 + q`, that of entry `q`
    of the concatenation; and `q = 1024·g + j` lies in the span of piece `g`, at position `j`. -/
private theorem biasLayout (b : Fin 4 → FVec Ideal S1024 .f32) (g : Fin 4) (j : Fin 1024) :
    (shapeCast S1x4096 (concatenate S4096 0 [⟨S1024, b 0⟩, ⟨S1024, b 1⟩, ⟨S1024, b 2⟩, ⟨S1024, b 3⟩]
        concatenates_S1024_S1024_S1024_S1024_S4096_d0) shapeCasts_S4096_S1x4096 : FVec Ideal S1x4096 .f32)
      (ix2 (0 : Fin 1) (gcol g j)) = b g (ix1 j) := by
  refine Eq.trans (shapeCast_apply _ shapeCasts_S4096_S1x4096 (ix2 (0 : Fin 1) (gcol g j)) (ix1 (gcol g j)) ?_) ?_
  · rw [Shape.rowMajor_val_one, Shape.rowMajor_val_two]
    show (gcol g j).val = 0 * 4096 + (gcol g j).val
    omega
  match g with
  | 0 =>
    refine Eq.trans (concatenate_apply_piece (0 : Fin 1) _ _ (ix1 (gcol 0 j)) 0 ?_ S1024 _ rfl rfl 0 rfl (ix1 j) (fun d hd => ?_) ?_) rfl
    · show (0 : Nat) < 4; decide
    · match d with
      | ⟨0, _⟩ => exact absurd rfl hd
    · show 0 + j.val = 1024 * 0 + j.val; omega
  | 1 =>
    refine Eq.trans (concatenate_apply_piece (0 : Fin 1) _ _ (ix1 (gcol 1 j)) 1 ?_ S1024 _ rfl rfl 1024 rfl (ix1 j) (fun d hd => ?_) ?_) rfl
    · show (1 : Nat) < 4; decide
    · match d with
      | ⟨0, _⟩ => exact absurd rfl hd
    · show 1024 + j.val = 1024 * 1 + j.val; omega
  | 2 =>
    refine Eq.trans (concatenate_apply_piece (0 : Fin 1) _ _ (ix1 (gcol 2 j)) 2 ?_ S1024 _ rfl rfl 2048 rfl (ix1 j) (fun d hd => ?_) ?_) rfl
    · show (2 : Nat) < 4; decide
    · match d with
      | ⟨0, _⟩ => exact absurd rfl hd
    · show 2048 + j.val = 1024 * 2 + j.val; omega
  | 3 =>
    refine Eq.trans (concatenate_apply_piece (0 : Fin 1) _ _ (ix1 (gcol 3 j)) 3 ?_ S1024 _ rfl rfl 3072 rfl (ix1 j) (fun d hd => ?_) ?_) rfl
    · show (3 : Nat) < 4; decide
    · match d with
      | ⟨0, _⟩ => exact absurd rfl hd
    · show 3072 + j.val = 1024 * 3 + j.val; omega

variable (m : (ℓ : Loc nD τ sig) → Buf (Elt Ideal) ℓ) (c : Dev nD)

/-- Core `c`'s TensorCore buffers when the pallas_call is entered: after the host operations before it. -/
abbrev entry (b : Ref sig .tc) : Buf (Elt Ideal) ((c.tc : Thread nD τ).loc b) :=
  StableHlo.after (hostOps0 (F := Ideal)) (fun b => m (c, b)) b

/-- Gate `g`'s weight in the first branch (forget, input, candidate, output). -/
def w1 (g : Fin 4) : SW.Idx → EReal :=
  match g with
  | 0 => m ((c.tc : Thread nD τ).loc main_arg5)
  | 1 => m ((c.tc : Thread nD τ).loc main_arg7)
  | 2 => m ((c.tc : Thread nD τ).loc main_arg9)
  | 3 => m ((c.tc : Thread nD τ).loc main_arg11)
/-- Gate `g`'s bias in the first branch. -/
def bias1 (g : Fin 4) : SV.Idx → EReal :=
  match g with
  | 0 => m ((c.tc : Thread nD τ).loc main_arg6)
  | 1 => m ((c.tc : Thread nD τ).loc main_arg8)
  | 2 => m ((c.tc : Thread nD τ).loc main_arg10)
  | 3 => m ((c.tc : Thread nD τ).loc main_arg12)
/-- Gate `g`'s weight in the second branch. -/
def w2 (g : Fin 4) : SW.Idx → EReal :=
  match g with
  | 0 => m ((c.tc : Thread nD τ).loc main_arg13)
  | 1 => m ((c.tc : Thread nD τ).loc main_arg15)
  | 2 => m ((c.tc : Thread nD τ).loc main_arg17)
  | 3 => m ((c.tc : Thread nD τ).loc main_arg19)
/-- Gate `g`'s bias in the second branch. -/
def bias2 (g : Fin 4) : SV.Idx → EReal :=
  match g with
  | 0 => m ((c.tc : Thread nD τ).loc main_arg14)
  | 1 => m ((c.tc : Thread nD τ).loc main_arg16)
  | 2 => m ((c.tc : Thread nD τ).loc main_arg18)
  | 3 => m ((c.tc : Thread nD τ).loc main_arg20)

/-! ## What the host operations leave in the six arrays

Each array is written once, by the last operation of its chain; read back through the operations that feed it, it is
the composed term over the argument arrays. -/

/-- The first branch's state array is the four state parts laid side by side. -/
private theorem entry_v9 :
    (entry m c main_v9 : SWH.Idx → EReal) =
      (truncf .bf16 (concatenate S1024x4096 1
        [⟨S1024x1024, transpose S1024x1024 [1, 0] (extractStridedSlice S1024x1024 ![0, 0] (w1 m c 0) slices_S1024x1536_S1024x1024_0_0) transposes_S1024x1024_S1024x1024_1_0⟩,
         ⟨S1024x1024, transpose S1024x1024 [1, 0] (extractStridedSlice S1024x1024 ![0, 0] (w1 m c 1) slices_S1024x1536_S1024x1024_0_0) transposes_S1024x1024_S1024x1024_1_0⟩,
         ⟨S1024x1024, transpose S1024x1024 [1, 0] (extractStridedSlice S1024x1024 ![0, 0] (w1 m c 2) slices_S1024x1536_S1024x1024_0_0) transposes_S1024x1024_S1024x1024_1_0⟩,
         ⟨S1024x1024, transpose S1024x1024 [1, 0] (extractStridedSlice S1024x1024 ![0, 0] (w1 m c 3) slices_S1024x1536_S1024x1024_0_0) transposes_S1024x1024_S1024x1024_1_0⟩]
        concatenates_S1024x1024_S1024x1024_S1024x1024_S1024x1024_S1024x4096_d1) bitsLt_bf16_f32 : FVec Ideal S1024x4096 .bf16) := by
  dsimp only [entry, hostOps0]; after_results; rfl

/-- The first branch's input array is the four input parts laid side by side. -/
private theorem entry_v19 :
    (entry m c main_v19 : SWY.Idx → EReal) =
      (truncf .bf16 (concatenate S512x4096 1
        [⟨S512x1024, transpose S512x1024 [1, 0] (extractStridedSlice S1024x512 ![0, 1024] (w1 m c 0) slices_S1024x1536_S1024x512_0_1024) transposes_S1024x512_S512x1024_1_0⟩,
         ⟨S512x1024, transpose S512x1024 [1, 0] (extractStridedSlice S1024x512 ![0, 1024] (w1 m c 1) slices_S1024x1536_S1024x512_0_1024) transposes_S1024x512_S512x1024_1_0⟩,
         ⟨S512x1024, transpose S512x1024 [1, 0] (extractStridedSlice S1024x512 ![0, 1024] (w1 m c 2) slices_S1024x1536_S1024x512_0_1024) transposes_S1024x512_S512x1024_1_0⟩,
         ⟨S512x1024, transpose S512x1024 [1, 0] (extractStridedSlice S1024x512 ![0, 1024] (w1 m c 3) slices_S1024x1536_S1024x512_0_1024) transposes_S1024x512_S512x1024_1_0⟩]
        concatenates_S512x1024_S512x1024_S512x1024_S512x1024_S512x4096_d1) bitsLt_bf16_f32 : FVec Ideal S512x4096 .bf16) := by
  dsimp only [entry, hostOps0]; after_results; rfl

/-- The first branch's bias row is the four biases end to end, as one row. -/
private theorem entry_v21 :
    (entry m c main_v21 : SB4.Idx → EReal) =
      (shapeCast S1x4096 (concatenate S4096 0 [⟨S1024, bias1 m c 0⟩, ⟨S1024, bias1 m c 1⟩, ⟨S1024, bias1 m c 2⟩, ⟨S1024, bias1 m c 3⟩]
        concatenates_S1024_S1024_S1024_S1024_S4096_d0) shapeCasts_S4096_S1x4096 : FVec Ideal S1x4096 .f32) := by
  dsimp only [entry, hostOps0]; after_results; rfl

/-- The second branch's state array. -/
private theorem entry_v31 :
    (entry m c main_v31 : SWH.Idx → EReal) =
      (truncf .bf16 (concatenate S1024x4096 1
        [⟨S1024x1024, transpose S1024x1024 [1, 0] (extractStridedSlice S1024x1024 ![0, 0] (w2 m c 0) slices_S1024x1536_S1024x1024_0_0) transposes_S1024x1024_S1024x1024_1_0⟩,
         ⟨S1024x1024, transpose S1024x1024 [1, 0] (extractStridedSlice S1024x1024 ![0, 0] (w2 m c 1) slices_S1024x1536_S1024x1024_0_0) transposes_S1024x1024_S1024x1024_1_0⟩,
         ⟨S1024x1024, transpose S1024x1024 [1, 0] (extractStridedSlice S1024x1024 ![0, 0] (w2 m c 2) slices_S1024x1536_S1024x1024_0_0) transposes_S1024x1024_S1024x1024_1_0⟩,
         ⟨S1024x1024, transpose S1024x1024 [1, 0] (extractStridedSlice S1024x1024 ![0, 0] (w2 m c 3) slices_S1024x1536_S1024x1024_0_0) transposes_S1024x1024_S1024x1024_1_0⟩]
        concatenates_S1024x1024_S1024x1024_S1024x1024_S1024x1024_S1024x4096_d1) bitsLt_bf16_f32 : FVec Ideal S1024x4096 .bf16) := by
  dsimp only [entry, hostOps0]; after_results; rfl

/-- The second branch's input array. -/
private theorem entry_v41 :
    (entry m c main_v41 : SWY.Idx → EReal) =
      (truncf .bf16 (concatenate S512x4096 1
        [⟨S512x1024, transpose S512x1024 [1, 0] (extractStridedSlice S1024x512 ![0, 1024] (w2 m c 0) slices_S1024x1536_S1024x512_0_1024) transposes_S1024x512_S512x1024_1_0⟩,
         ⟨S512x1024, transpose S512x1024 [1, 0] (extractStridedSlice S1024x512 ![0, 1024] (w2 m c 1) slices_S1024x1536_S1024x512_0_1024) transposes_S1024x512_S512x1024_1_0⟩,
         ⟨S512x1024, transpose S512x1024 [1, 0] (extractStridedSlice S1024x512 ![0, 1024] (w2 m c 2) slices_S1024x1536_S1024x512_0_1024) transposes_S1024x512_S512x1024_1_0⟩,
         ⟨S512x1024, transpose S512x1024 [1, 0] (extractStridedSlice S1024x512 ![0, 1024] (w2 m c 3) slices_S1024x1536_S1024x512_0_1024) transposes_S1024x512_S512x1024_1_0⟩]
        concatenates_S512x1024_S512x1024_S512x1024_S512x1024_S512x4096_d1) bitsLt_bf16_f32 : FVec Ideal S512x4096 .bf16) := by
  dsimp only [entry, hostOps0]; after_results; rfl

/-- The second branch's bias row. -/
private theorem entry_v43 :
    (entry m c main_v43 : SB4.Idx → EReal) =
      (shapeCast S1x4096 (concatenate S4096 0 [⟨S1024, bias2 m c 0⟩, ⟨S1024, bias2 m c 1⟩, ⟨S1024, bias2 m c 2⟩, ⟨S1024, bias2 m c 3⟩]
        concatenates_S1024_S1024_S1024_S1024_S4096_d0) shapeCasts_S4096_S1x4096 : FVec Ideal S1x4096 .f32) := by
  dsimp only [entry, hostOps0]; after_results; rfl

/-! ## The six arrays at an index -/

/-- First branch, state part: entry `(k, 1024·g + j)` is gate `g`'s weight at `(j, k)`. -/
theorem wh1_at (k : Fin 1024) (g : Fin 4) (j : Fin 1024) :
    (entry m c main_v9 : SWH.Idx → EReal) (ix2 k (gcol g j)) = w1 m c g (ix2 j (colH k)) :=
  (congrFun (entry_v9 m c) (ix2 k (gcol g j))).trans (stateLayout (w1 m c) k g j)
/-- First branch, input part: entry `(k, 1024·g + j)` is gate `g`'s weight at `(j, 1024 + k)`. -/
theorem wy1_at (k : Fin 512) (g : Fin 4) (j : Fin 1024) :
    (entry m c main_v19 : SWY.Idx → EReal) (ix2 k (gcol g j)) = w1 m c g (ix2 j (colY k)) :=
  (congrFun (entry_v19 m c) (ix2 k (gcol g j))).trans (inputLayout (w1 m c) k g j)
/-- First branch, bias row: entry `1024·g + j` is gate `g`'s bias at `j`. -/
theorem b1_at (g : Fin 4) (j : Fin 1024) :
    (entry m c main_v21 : SB4.Idx → EReal) (ix2 (0 : Fin 1) (gcol g j)) = bias1 m c g (ix1 j) :=
  (congrFun (entry_v21 m c) (ix2 (0 : Fin 1) (gcol g j))).trans (biasLayout (bias1 m c) g j)
/-- Second branch, state part. -/
theorem wh2_at (k : Fin 1024) (g : Fin 4) (j : Fin 1024) :
    (entry m c main_v31 : SWH.Idx → EReal) (ix2 k (gcol g j)) = w2 m c g (ix2 j (colH k)) :=
  (congrFun (entry_v31 m c) (ix2 k (gcol g j))).trans (stateLayout (w2 m c) k g j)
/-- Second branch, input part. -/
theorem wy2_at (k : Fin 512) (g : Fin 4) (j : Fin 1024) :
    (entry m c main_v41 : SWY.Idx → EReal) (ix2 k (gcol g j)) = w2 m c g (ix2 j (colY k)) :=
  (congrFun (entry_v41 m c) (ix2 k (gcol g j))).trans (inputLayout (w2 m c) k g j)
/-- Second branch, bias row. -/
theorem b2_at (g : Fin 4) (j : Fin 1024) :
    (entry m c main_v43 : SB4.Idx → EReal) (ix2 (0 : Fin 1) (gcol g j)) = bias2 m c g (ix1 j) :=
  (congrFun (entry_v43 m c) (ix2 (0 : Fin 1) (gcol g j))).trans (biasLayout (bias2 m c) g j)

end Cert.KernelIdeal.Prep

end
-- ==== Proof.KerCell.lean ====
/-
  The two result arrays of the LSTM cell's program, after the run, are the cell's two functions of the arguments.

  Grid point `t` works on batch rows `64·t … 64·t + 63`: row `p` of its blocks of the states, the input and the old cell
  is row `64·t + p` of those arrays, and its blocks of the six laid-out weight and bias arrays are those arrays whole.
  The laid-out arrays hold gate `g`'s weights in columns `1024·g …`, so the tile form of a gate's pre-activation at
  `(p, 1024·g + j)` is the gate's pre-activation at `(64·t + p, j)`; hence what point `t` writes back is rows
  `64·t … 64·t + 63` of the cell's function of the arguments.  The 64 row tiles cover the result arrays.
-/
import proofs.«140409_j13769665150976_1_alg».proof.Proof.KerRun
import proofs.«140409_j13769665150976_1_alg».proof.Proof.KerTile
import proofs.«140409_j13769665150976_1_alg».proof.Proof.KerPrep
import proofs.«140409_j13769665150976_1_alg».proof.Proof.LstmSpec
import Idealize.ShloMosaic.Lib.Pipeline.Value
import Idealize.ShloMosaic.Lib.ValueIdx

set_option maxRecDepth 16384

noncomputable section

open scoped BigOperators

namespace Cert.KernelIdeal.Cell

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Run Cert.LstmSpec

variable (m : (ℓ : Loc nD τ sig) → Buf (Elt Ideal) ℓ) (ρ : Dev nD → PrngReg)

/-- The cell's arguments as the program's memory holds them on core `c`. -/
def args (c : Dev nD) : Args where
  y := m ((c.tc : Thread nD τ).loc main_arg0)
  hl := m ((c.tc : Thread nD τ).loc main_arg1)
  c := m ((c.tc : Thread nD τ).loc main_arg2)
  ht := m ((c.tc : Thread nD τ).loc main_arg3)
  wf := m ((c.tc : Thread nD τ).loc main_arg5)
  bf := m ((c.tc : Thread nD τ).loc main_arg6)
  wi := m ((c.tc : Thread nD τ).loc main_arg7)
  bi := m ((c.tc : Thread nD τ).loc main_arg8)
  wc := m ((c.tc : Thread nD τ).loc main_arg9)
  bc := m ((c.tc : Thread nD τ).loc main_arg10)
  wo := m ((c.tc : Thread nD τ).loc main_arg11)
  bo := m ((c.tc : Thread nD τ).loc main_arg12)
  wf' := m ((c.tc : Thread nD τ).loc main_arg13)
  bf' := m ((c.tc : Thread nD τ).loc main_arg14)
  wi' := m ((c.tc : Thread nD τ).loc main_arg15)
  bi' := m ((c.tc : Thread nD τ).loc main_arg16)
  wc' := m ((c.tc : Thread nD τ).loc main_arg17)
  bc' := m ((c.tc : Thread nD τ).loc main_arg18)
  wo' := m ((c.tc : Thread nD τ).loc main_arg19)
  bo' := m ((c.tc : Thread nD τ).loc main_arg20)

theorem hz : (![0, 0] : Fin 2 → Nat) = fun _ => 0 := funext fun a => by fin_cases a <;> rfl

/-! ## The blocks at a point, by name and at an index -/

abbrev hlBlk (c : Dev nD) (t : Fin cfg0.N) : Vec Ideal S64x1024 .f32 := blk m c 0 t
abbrev htBlk (c : Dev nD) (t : Fin cfg0.N) : Vec Ideal S64x1024 .f32 := blk m c 1 t
abbrev yBlk (c : Dev nD) (t : Fin cfg0.N) : Vec Ideal S64x512 .f32 := blk m c 2 t
abbrev cBlk (c : Dev nD) (t : Fin cfg0.N) : Vec Ideal S64x1024 .f32 := blk m c 3 t
abbrev wh1Blk (c : Dev nD) (t : Fin cfg0.N) : Vec Ideal S1024x4096 .bf16 := blk m c 4 t
abbrev wy1Blk (c : Dev nD) (t : Fin cfg0.N) : Vec Ideal S512x4096 .bf16 := blk m c 5 t
abbrev b1Blk (c : Dev nD) (t : Fin cfg0.N) : Vec Ideal S1x4096 .f32 := blk m c 6 t
abbrev wh2Blk (c : Dev nD) (t : Fin cfg0.N) : Vec Ideal S1024x4096 .bf16 := blk m c 7 t
abbrev wy2Blk (c : Dev nD) (t : Fin cfg0.N) : Vec Ideal S512x4096 .bf16 := blk m c 8 t
abbrev b2Blk (c : Dev nD) (t : Fin cfg0.N) : Vec Ideal S1x4096 .f32 := blk m c 9 t

/-- The printed index maps over the grid: the row-tiled windows are at block `(t, 0)`, the laid-out arrays at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Every row tile is some point's. -/
theorem idx_onto : ∀ q : Fin 64, ∃ t : Fin cfg0.N, t.val = q.val :=
  (by decide +kernel : ∀ q : Fin 64, ∃ t : Fin grid0.N, t.val = q.val)

/-- Row `64·t + p` of the batch. -/
abbrev row (t : Fin cfg0.N) (p : Fin 64) : Fin 4096 := ⟨64 * t.val + p.val, by
  have : t.val < 64 := lt_of_lt_of_eq t.isLt N_0
  omega⟩

/-- Row `p` of the hl block at point `t` is row `64·t + p` of the array. -/
theorem hlBlk_at (c : Dev nD) (t : Fin cfg0.N) (p : Fin 64) (k : Fin 1024) :
    hlBlk m c t (ix2 p k) = (m ((c.tc : Thread nD τ).loc main_arg1) : S4096x1024.Idx → EReal) (ix2 (row t p) k) := by
  obtain ⟨e00, e01, e10, e11, e20, e21, e30, e31, -⟩ := idx_facts t
  rw [← entry_arg1 m c]
  show (entry m c main_arg1 : S4096x1024.Idx → EReal) (((cfg0.win 0).blk t).view.emb (ix2 p k)) = _
  congr 1
  funext a; apply Fin.ext
  match a with
  | ⟨0, _⟩ => show win0_0.index t (0 : Fin 2) * 64 + 1 * p.val = 64 * t.val + p.val; omega
  | ⟨1, _⟩ => show win0_0.index t (1 : Fin 2) * 1024 + 1 * k.val = k.val; omega
/-- Row `p` of the ht block at point `t` is row `64·t + p` of the array. -/
theorem htBlk_at (c : Dev nD) (t : Fin cfg0.N) (p : Fin 64) (k : Fin 1024) :
    htBlk m c t (ix2 p k) = (m ((c.tc : Thread nD τ).loc main_arg3) : S4096x1024.Idx → EReal) (ix2 (row t p) k) := by
  obtain ⟨e00, e01, e10, e11, e20, e21, e30, e31, -⟩ := idx_facts t
  rw [← entry_arg3 m c]
  show (entry m c main_arg3 : S4096x1024.Idx → EReal) (((cfg0.win 1).blk t).view.emb (ix2 p k)) = _
  congr 1
  funext a; apply Fin.ext
  match a with
  | ⟨0, _⟩ => show win0_1.index t (0 : Fin 2) * 64 + 1 * p.val = 64 * t.val + p.val; omega
  | ⟨1, _⟩ => show win0_1.index t (1 : Fin 2) * 1024 + 1 * k.val = k.val; omega
/-- Row `p` of the y block at point `t` is row `64·t + p` of the array. -/
theorem yBlk_at (c : Dev nD) (t : Fin cfg0.N) (p : Fin 64) (k : Fin 512) :
    yBlk m c t (ix2 p k) = (m ((c.tc : Thread nD τ).loc main_arg0) : S4096x512.Idx → EReal) (ix2 (row t p) k) := by
  obtain ⟨e00, e01, e10, e11, e20, e21, e30, e31, -⟩ := idx_facts t
  rw [← entry_arg0 m c]
  show (entry m c main_arg0 : S4096x512.Idx → EReal) (((cfg0.win 2).blk t).view.emb (ix2 p k)) = _
  congr 1
  funext a; apply Fin.ext
  match a with
  | ⟨0, _⟩ => show win0_2.index t (0 : Fin 2) * 64 + 1 * p.val = 64 * t.val + p.val; omega
  | ⟨1, _⟩ => show win0_2.index t (1 : Fin 2) * 512 + 1 * k.val = k.val; omega
/-- Row `p` of the c block at point `t` is row `64·t + p` of the array. -/
theorem cBlk_at (c : Dev nD) (t : Fin cfg0.N) (p : Fin 64) (k : Fin 1024) :
    cBlk m c t (ix2 p k) = (m ((c.tc : Thread nD τ).loc main_arg2) : S4096x1024.Idx → EReal) (ix2 (row t p) k) := by
  obtain ⟨e00, e01, e10, e11, e20, e21, e30, e31, -⟩ := idx_facts t
  rw [← entry_arg2 m c]
  show (entry m c main_arg2 : S4096x1024.Idx → EReal) (((cfg0.win 3).blk t).view.emb (ix2 p k)) = _
  congr 1
  funext a; apply Fin.ext
  match a with
  | ⟨0, _⟩ => show win0_3.index t (0 : Fin 2) * 64 + 1 * p.val = 64 * t.val + p.val; omega
  | ⟨1, _⟩ => show win0_3.index t (1 : Fin 2) * 1024 + 1 * k.val = k.val; omega

/-- The wh1 block is the laid-out array whole. -/
theorem wh1Blk_at (c : Dev nD) (t : Fin cfg0.N) (k : Fin 1024) (q : Fin 4096) :
    wh1Blk m c t (ix2 k q) = (entry m c main_v9 : S1024x4096.Idx → EReal) (ix2 k q) := by
  obtain ⟨-, -, -, -, -, -, -, -, f0, f1, -, -, -, -, -, -, -, -, -, -, -⟩ := idx_facts t
  show (entry m c main_v9 : S1024x4096.Idx → EReal) (((cfg0.win 4).blk t).view.emb (ix2 k q)) = _
  congr 1
  funext a; apply Fin.ext
  match a with
  | ⟨0, _⟩ => show win0_4.index t (0 : Fin 2) * 1024 + 1 * k.val = k.val; omega
  | ⟨1, _⟩ => show win0_4.index t (1 : Fin 2) * 4096 + 1 * q.val = q.val; omega
/-- The wy1 block is the laid-out array whole. -/
theorem wy1Blk_at (c : Dev nD) (t : Fin cfg0.N) (k : Fin 512) (q : Fin 4096) :
    wy1Blk m c t (ix2 k q) = (entry m c main_v19 : S512x4096.Idx → EReal) (ix2 k q) := by
  obtain ⟨-, -, -, -, -, -, -, -, -, -, f0, f1, -, -, -, -, -, -, -, -, -⟩ := idx_facts t
  show (entry m c main_v19 : S512x4096.Idx → EReal) (((cfg0.win 5).blk t).view.emb (ix2 k q)) = _
  congr 1
  funext a; apply Fin.ext
  match a with
  | ⟨0, _⟩ => show win0_5.index t (0 : Fin 2) * 512 + 1 * k.val = k.val; omega
  | ⟨1, _⟩ => show win0_5.index t (1 : Fin 2) * 4096 + 1 * q.val = q.val; omega
/-- The b1 block is the laid-out array whole. -/
theorem b1Blk_at (c : Dev nD) (t : Fin cfg0.N) (k : Fin 1) (q : Fin 4096) :
    b1Blk m c t (ix2 k q) = (entry m c main_v21 : S1x4096.Idx → EReal) (ix2 k q) := by
  obtain ⟨-, -, -, -, -, -, -, -, -, -, -, -, f0, f1, -, -, -, -, -, -, -⟩ := idx_facts t
  show (entry m c main_v21 : S1x4096.Idx → EReal) (((cfg0.win 6).blk t).view.emb (ix2 k q)) = _
  congr 1
  funext a; apply Fin.ext
  match a with
  | ⟨0, _⟩ => show win0_6.index t (0 : Fin 2) * 1 + 1 * k.val = k.val; omega
  | ⟨1, _⟩ => show win0_6.index t (1 : Fin 2) * 4096 + 1 * q.val = q.val; omega
/-- The wh2 block is the laid-out array whole. -/
theorem wh2Blk_at (c : Dev nD) (t : Fin cfg0.N) (k : Fin 1024) (q : Fin 4096) :
    wh2Blk m c t (ix2 k q) = (entry m c main_v31 : S1024x4096.Idx → EReal) (ix2 k q) := by
  obtain ⟨-, -, -, -, -, -, -, -, -, -, -, -, -, -, f0, f1, -, -, -, -, -⟩ := idx_facts t
  show (entry m c main_v31 : S1024x4096.Idx → EReal) (((cfg0.win 7).blk t).view.emb (ix2 k q)) = _
  congr 1
  funext a; apply Fin.ext
  match a with
  | ⟨0, _⟩ => show win0_7.index t (0 : Fin 2) * 1024 + 1 * k.val = k.val; omega
  | ⟨1, _⟩ => show win0_7.index t (1 : Fin 2) * 4096 + 1 * q.val = q.val; omega
/-- The wy2 block is the laid-out array whole. -/
theorem wy2Blk_at (c : Dev nD) (t : Fin cfg0.N) (k : Fin 512) (q : Fin 4096) :
    wy2Blk m c t (ix2 k q) = (entry m c main_v41 : S512x4096.Idx → EReal) (ix2 k q) := by
  obtain ⟨-, -, -, -, -, -, -, -, -, -, -, -, -, -, -, -, f0, f1, -, -, -⟩ := idx_facts t
  show (entry m c main_v41 : S512x4096.Idx → EReal) (((cfg0.win 8).blk t).view.emb (ix2 k q)) = _
  congr 1
  funext a; apply Fin.ext
  match a with
  | ⟨0, _⟩ => show win0_8.index t (0 : Fin 2) * 512 + 1 * k.val = k.val; omega
  | ⟨1, _⟩ => show win0_8.index t (1 : Fin 2) * 4096 + 1 * q.val = q.val; omega
/-- The b2 block is the laid-out array whole. -/
theorem b2Blk_at (c : Dev nD) (t : Fin cfg0.N) (k : Fin 1) (q : Fin 4096) :
    b2Blk m c t (ix2 k q) = (entry m c main_v43 : S1x4096.Idx → EReal) (ix2 k q) := by
  obtain ⟨-, -, -, -, -, -, -, -, -, -, -, -, -, -, -, -, -, -, f0, f1, -⟩ := idx_facts t
  show (entry m c main_v43 : S1x4096.Idx → EReal) (((cfg0.win 9).blk t).view.emb (ix2 k q)) = _
  congr 1
  funext a; apply Fin.ext
  match a with
  | ⟨0, _⟩ => show win0_9.index t (0 : Fin 2) * 1 + 1 * k.val = k.val; omega
  | ⟨1, _⟩ => show win0_9.index t (1 : Fin 2) * 4096 + 1 * q.val = q.val; omega

/-! ## The tile form at a point is the cell's form at the point's rows -/

/-- First branch: the tile's pre-activation at `(p, 1024·g + j)` is gate `g`'s pre-activation at `(64·t + p, j)`. -/
theorem pre1_at (c : Dev nD) (t : Fin cfg0.N) (p : Fin 64) (g : Fin 4) (j : Fin 1024) :
    tilePre (hlBlk m c t) (yBlk m c t) (wh1Blk m c t) (wy1Blk m c t) (b1Blk m c t) p (gcol g j)
      = gatePre (args m c).hl (args m c).y (Prep.w1 m c g) (Prep.bias1 m c g) (row t p) j := by
  unfold tilePre gatePre
  refine congrArg₂ HAdd.hAdd (congrArg₂ HAdd.hAdd (Finset.sum_congr rfl fun k _ => ?_) (Finset.sum_congr rfl fun k _ => ?_)) ?_
  · rw [hlBlk_at, wh1Blk_at]; exact congrArg (HMul.hMul _) (Prep.wh1_at m c k g j)
  · rw [yBlk_at, wy1Blk_at]; exact congrArg (HMul.hMul _) (Prep.wy1_at m c k g j)
  · rw [b1Blk_at]; exact Prep.b1_at m c g j

/-- Second branch, likewise. -/
theorem pre2_at (c : Dev nD) (t : Fin cfg0.N) (p : Fin 64) (g : Fin 4) (j : Fin 1024) :
    tilePre (htBlk m c t) (yBlk m c t) (wh2Blk m c t) (wy2Blk m c t) (b2Blk m c t) p (gcol g j)
      = gatePre (args m c).ht (args m c).y (Prep.w2 m c g) (Prep.bias2 m c g) (row t p) j := by
  unfold tilePre gatePre
  refine congrArg₂ HAdd.hAdd (congrArg₂ HAdd.hAdd (Finset.sum_congr rfl fun k _ => ?_) (Finset.sum_congr rfl fun k _ => ?_)) ?_
  · rw [htBlk_at, wh2Blk_at]; exact congrArg (HMul.hMul _) (Prep.wh2_at m c k g j)
  · rw [yBlk_at, wy2Blk_at]; exact congrArg (HMul.hMul _) (Prep.wy2_at m c k g j)
  · rw [b2Blk_at]; exact Prep.b2_at m c g j

/-- The tile's new cell at `(p, j)` is the new cell at `(64·t + p, j)`. -/
theorem tileCell_at (c : Dev nD) (t : Fin cfg0.N) (p : Fin 64) (j : Fin 1024) :
    tileCell (hlBlk m c t) (htBlk m c t) (yBlk m c t) (cBlk m c t) (wh1Blk m c t) (wy1Blk m c t) (b1Blk m c t)
        (wh2Blk m c t) (wy2Blk m c t) (b2Blk m c t) p j
      = cellNew (args m c) (row t p) j := by
  unfold tileCell cellNew
  rw [pre1_at, pre1_at, pre1_at, pre2_at, pre2_at, pre2_at, cBlk_at]
  rfl

/-- The tile's new hidden state at `(p, j)` is the new hidden state at `(64·t + p, j)`. -/
theorem tileHid_at (c : Dev nD) (t : Fin cfg0.N) (p : Fin 64) (j : Fin 1024) :
    tileHid (hlBlk m c t) (htBlk m c t) (yBlk m c t) (cBlk m c t) (wh1Blk m c t) (wy1Blk m c t) (b1Blk m c t)
        (wh2Blk m c t) (wy2Blk m c t) (b2Blk m c t) p j
      = hidNew (args m c) (row t p) j := by
  unfold tileHid hidNew
  rw [tileCell_at, pre1_at, pre2_at]
  rfl

/-! ## What a point writes back -/

/-- Point `t` writes back rows `64·t … 64·t + 63` of the new cell. -/
theorem flushed_cell (c : Dev nD) (t : Fin cfg0.N) :
    (dats m 0 c).flushed 11 t = ((cfg0.win 11).blk t).view.read (Elt Ideal) (cellArr (args m c)) := by
  show (cfg0.win 11).cut (grid0.coords t) ((dats m 0 c).after 11 t) = _
  rw [after_11]
  unfold cellOut
  rw [View.canon_unit_zero hz]
  simp only [View.ld_unit_zero (S := S64x1024) hz, View.ld_unit_zero (S := S64x512) hz, View.ld_unit_zero (S := S1024x4096) hz,
    View.ld_unit_zero (S := S512x4096) hz, View.ld_unit_zero (S := S1x4096) hz]
  obtain ⟨-, -, -, -, -, -, -, -, -, -, -, -, -, -, -, -, -, -, -, -, -, -, e0, e1⟩ := idx_facts t
  funext jj
  obtain ⟨p, j, rfl⟩ : ∃ (p : Fin 64) (j : Fin 1024), jj = ix2 p j := ⟨jj 0, jj 1, eq_ix2 jj⟩
  refine (Tile.storedCell_at (hlBlk m c t) (htBlk m c t) (yBlk m c t) (cBlk m c t) (wh1Blk m c t) (wy1Blk m c t) (b1Blk m c t)
    (wh2Blk m c t) (wy2Blk m c t) (b2Blk m c t) p j).trans ?_
  rw [tileCell_at]
  show cellNew (args m c) (row t p) j = cellArr (args m c) (((cfg0.win 11).blk t).view.emb (ix2 p j))
  unfold cellArr
  have h0 : (((cfg0.win 11).blk t).view.emb (ix2 p j)) 0 = row t p := by
    apply Fin.ext
    show win0_11.index t (0 : Fin 2) * 64 + 1 * p.val = 64 * t.val + p.val; omega
  have h1 : (((cfg0.win 11).blk t).view.emb (ix2 p j)) 1 = j := by
    apply Fin.ext
    show win0_11.index t (1 : Fin 2) * 1024 + 1 * j.val = j.val; omega
  rw [h0, h1]

/-- Point `t` writes back rows `64·t … 64·t + 63` of the new hidden state. -/
theorem flushed_hid (c : Dev nD) (t : Fin cfg0.N) :
    (dats m 0 c).flushed 10 t = ((cfg0.win 10).blk t).view.read (Elt Ideal) (hidArr (args m c)) := by
  show (cfg0.win 10).cut (grid0.coords t) ((dats m 0 c).after 10 t) = _
  rw [after_10]
  unfold hidOut
  rw [View.canon_unit_zero hz]
  simp only [View.ld_unit_zero (S := S64x1024) hz, View.ld_unit_zero (S := S64x512) hz, View.ld_unit_zero (S := S1024x4096) hz,
    View.ld_unit_zero (S := S512x4096) hz, View.ld_unit_zero (S := S1x4096) hz]
  obtain ⟨-, -, -, -, -, -, -, -, -, -, -, -, -, -, -, -, -, -, -, -, e0, e1, -, -⟩ := idx_facts t
  funext jj
  obtain ⟨p, j, rfl⟩ : ∃ (p : Fin 64) (j : Fin 1024), jj = ix2 p j := ⟨jj 0, jj 1, eq_ix2 jj⟩
  refine (Tile.storedHid_at (hlBlk m c t) (htBlk m c t) (yBlk m c t) (cBlk m c t) (wh1Blk m c t) (wy1Blk m c t) (b1Blk m c t)
    (wh2Blk m c t) (wy2Blk m c t) (b2Blk m c t) p j).trans ?_
  rw [tileHid_at]
  show hidNew (args m c) (row t p) j = hidArr (args m c) (((cfg0.win 10).blk t).view.emb (ix2 p j))
  unfold hidArr
  have h0 : (((cfg0.win 10).blk t).view.emb (ix2 p j)) 0 = row t p := by
    apply Fin.ext
    show win0_10.index t (0 : Fin 2) * 64 + 1 * p.val = 64 * t.val + p.val; omega
  have h1 : (((cfg0.win 10).blk t).view.emb (ix2 p j)) 1 = j := by
    apply Fin.ext
    show win0_10.index t (1 : Fin 2) * 1024 + 1 * j.val = j.val; omega
  rw [h0, h1]

/-! ## The row tiles cover the results -/

theorem mem_tile_hid (t : Fin cfg0.N) (i : S4096x1024.Idx) :
    i ∈ ((cfg0.win 10).blk t).view.set ↔ ∀ a : Fin 2, win0_10.index t a * S64x1024.size a ≤ (i a).val ∧ (i a).val < win0_10.index t a * S64x1024.size a + S64x1024.size a := by
  show i ∈ ((View.whole main_v44_0).slice (win0_10.rect t)).set ↔ _
  rw [View.set_slice_whole, Rect.mem_set_unit]
  exact Iff.rfl

theorem mem_tile_cell (t : Fin cfg0.N) (i : S4096x1024.Idx) :
    i ∈ ((cfg0.win 11).blk t).view.set ↔ ∀ a : Fin 2, win0_11.index t a * S64x1024.size a ≤ (i a).val ∧ (i a).val < win0_11.index t a * S64x1024.size a + S64x1024.size a := by
  show i ∈ ((View.whole main_v44_1).slice (win0_11.rect t)).set ↔ _
  rw [View.set_slice_whole, Rect.mem_set_unit]
  exact Iff.rfl

/-- Row `r` lies in tile `r / 64`. -/
theorem cover_hid (i : S4096x1024.Idx) : ∃ t : Fin cfg0.N, (cfg0.win 10).flush t = true ∧ i ∈ ((cfg0.win 10).blk t).view.set := by
  have hi0 : (i 0).val < 4096 := (i 0).isLt
  have hi1 : (i 1).val < 1024 := (i 1).isLt
  obtain ⟨t, ht⟩ := idx_onto ⟨(i 0).val / 64, by omega⟩
  have ht' : t.val = (i 0).val / 64 := ht
  obtain ⟨-, -, -, -, -, -, -, -, -, -, -, -, -, -, -, -, -, -, -, -, e0, e1, -, -⟩ := idx_facts t
  refine ⟨t, flush0_10 t, ?_⟩
  rw [mem_tile_hid]
  intro a
  match a with
  | ⟨0, _⟩ => show win0_10.index t (0 : Fin 2) * 64 ≤ (i 0).val ∧ (i 0).val < win0_10.index t (0 : Fin 2) * 64 + 64; omega
  | ⟨1, _⟩ => show win0_10.index t (1 : Fin 2) * 1024 ≤ (i 1).val ∧ (i 1).val < win0_10.index t (1 : Fin 2) * 1024 + 1024; omega

theorem cover_cell (i : S4096x1024.Idx) : ∃ t : Fin cfg0.N, (cfg0.win 11).flush t = true ∧ i ∈ ((cfg0.win 11).blk t).view.set := by
  have hi0 : (i 0).val < 4096 := (i 0).isLt
  have hi1 : (i 1).val < 1024 := (i 1).isLt
  obtain ⟨t, ht⟩ := idx_onto ⟨(i 0).val / 64, by omega⟩
  have ht' : t.val = (i 0).val / 64 := ht
  obtain ⟨-, -, -, -, -, -, -, -, -, -, -, -, -, -, -, -, -, -, -, -, -, -, e0, e1⟩ := idx_facts t
  refine ⟨t, flush0_11 t, ?_⟩
  rw [mem_tile_cell]
  intro a
  match a with
  | ⟨0, _⟩ => show win0_11.index t (0 : Fin 2) * 64 ≤ (i 0).val ∧ (i 0).val < win0_11.index t (0 : Fin 2) * 64 + 64; omega
  | ⟨1, _⟩ => show win0_11.index t (1 : Fin 2) * 1024 ≤ (i 1).val ∧ (i 1).val < win0_11.index t (1 : Fin 2) * 1024 + 1024; omega

/-! ## The results after the run -/

theorem final_hid (c : Dev nD) : (dats m 0 c).arrAt 10 cfg0.N = hidArr (args m c) :=
  (dats m 0 c).arrAt_eq_of_cover 10 (hidArr (args m c)) (fun t _ => flushed_hid m c t) cover_hid

theorem final_cell (c : Dev nD) : (dats m 0 c).arrAt 11 cfg0.N = cellArr (args m c) :=
  (dats m 0 c).arrAt_eq_of_cover 11 (cellArr (args m c)) (fun t _ => flushed_cell m c t) cover_cell

end Cert.KernelIdeal.Cell

end
-- ==== Proof.RefCell.lean ====
/-
  The reference computes the cell.

  The reference joins each state with the input along the feature axis (1024 + 512 = 1536 features), stacks the four
  gates' weights into one 4096 × 1536 array, and takes one product per branch; entry `(r, 1024·g + j)` of that product
  is the sum over all 1536 features, which splits into the sum over the state's 1024 features plus the sum over the
  input's 512 — the gate's pre-activation before the bias.  The logistic function is written out on the host as
  `1 / (1 + exp (-x))`, which is its definition on the extended reals.  The new cell is added up as
  `(f₁·c + i₁·g₁) + (f₂·c + i₂·g₂)`; addition of extended reals is associative, so this is the cell's
  `((f₁·c + i₁·g₁) + f₂·c) + i₂·g₂`.
-/
import proofs.«140409_j13769665150976_1_alg».proof.Proof.Gen.ReferenceIdeal.Read
import proofs.«140409_j13769665150976_1_alg».proof.Proof.LstmSpec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.Cell

open Idealize.ShloMosaic Idealize.ShloMosaic.TcCoe Idealize.ShloMosaic.ValueIdx Idealize.SL.Sem
open Cert.ReferenceIdeal Cert.LstmSpec

/-- The cell's arguments as the reference's memory holds them on core `c`. -/
def args (m : (ℓ : Loc nD τ sig) → Buf (Elt Ideal) ℓ) (c : Dev nD) : Args where
  y := m ((c.tc : Thread nD τ).loc main_arg0)
  hl := m ((c.tc : Thread nD τ).loc main_arg1)
  c := m ((c.tc : Thread nD τ).loc main_arg2)
  ht := m ((c.tc : Thread nD τ).loc main_arg3)
  wf := m ((c.tc : Thread nD τ).loc main_arg5)
  bf := m ((c.tc : Thread nD τ).loc main_arg6)
  wi := m ((c.tc : Thread nD τ).loc main_arg7)
  bi := m ((c.tc : Thread nD τ).loc main_arg8)
  wc := m ((c.tc : Thread nD τ).loc main_arg9)
  bc := m ((c.tc : Thread nD τ).loc main_arg10)
  wo := m ((c.tc : Thread nD τ).loc main_arg11)
  bo := m ((c.tc : Thread nD τ).loc main_arg12)
  wf' := m ((c.tc : Thread nD τ).loc main_arg13)
  bf' := m ((c.tc : Thread nD τ).loc main_arg14)
  wi' := m ((c.tc : Thread nD τ).loc main_arg15)
  bi' := m ((c.tc : Thread nD τ).loc main_arg16)
  wc' := m ((c.tc : Thread nD τ).loc main_arg17)
  bc' := m ((c.tc : Thread nD τ).loc main_arg18)
  wo' := m ((c.tc : Thread nD τ).loc main_arg19)
  bo' := m ((c.tc : Thread nD τ).loc main_arg20)

/-! ## Sums, joins and stacks at an index -/

/-- The sum over the 1536 joined features is the sum over the state's 1024 plus the sum over the input's 512. -/
private theorem sum_split (f : Fin 1536 → EReal) :
    ∑ k : Fin 1536, f k = (∑ k : Fin 1024, f (colH k)) + ∑ k : Fin 512, f (colY k) := by
  have h := Fin.sum_univ_add (M := EReal) (a := 1024) (b := 512) f
  exact h

private theorem join_left (h : S4096x1024.Idx → EReal) (y : S4096x512.Idx → EReal)
    (pf : Shape.Concatenates [S4096x1024, S4096x512] S4096x1536 1) (r : Fin 4096) (k : Fin 1024) :
    concatenate S4096x1536 1 [⟨S4096x1024, h⟩, ⟨S4096x512, y⟩] pf (ix2 r (colH k)) = h (ix2 r k) :=
  concatenate_pair_apply_left 1 h y pf (ix2 r (colH k)) rfl (ix2 r k) (fun b => match b with
    | ⟨0, _⟩ => rfl
    | ⟨1, _⟩ => rfl)

private theorem join_right (h : S4096x1024.Idx → EReal) (y : S4096x512.Idx → EReal)
    (pf : Shape.Concatenates [S4096x1024, S4096x512] S4096x1536 1) (r : Fin 4096) (k : Fin 512) :
    concatenate S4096x1536 1 [⟨S4096x1024, h⟩, ⟨S4096x512, y⟩] pf (ix2 r (colY k)) = y (ix2 r k) :=
  concatenate_pair_apply_right 1 h y pf (ix2 r (colY k)) rfl rfl (ix2 r k)
    (fun b hb => match b, hb with
      | ⟨0, _⟩, _ => rfl
      | ⟨1, _⟩, hb => absurd rfl hb)
    (by show k.val + 1024 = 1024 + k.val; omega)

private theorem host_logistic (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.logistic x
  rw [Ideal.ofBits_one_f32]
  rfl

/-- The four weights stacked along the rows: row `1024·g + j` of the stack is row `j` of the `g`-th weight. -/
private theorem stack_w (w : Fin 4 → (S1024x1536.Idx → EReal))
    (pf : Shape.Concatenates [S1024x1536, S1024x1536, S1024x1536, S1024x1536] S4096x1536 0)
    (g : Fin 4) (j : Fin 1024) (k : Fin 1536) :
    concatenate S4096x1536 0 [⟨S1024x1536, w 0⟩, ⟨S1024x1536, w 1⟩, ⟨S1024x1536, w 2⟩, ⟨S1024x1536, w 3⟩] pf
      (ix2 (gcol g j) k) = w g (ix2 j k) := by
  refine concatenate_apply_piece (t := S4096x1536) 0
    [⟨S1024x1536, w 0⟩, ⟨S1024x1536, w 1⟩, ⟨S1024x1536, w 2⟩, ⟨S1024x1536, w 3⟩] pf (ix2 (gcol g j) k) g.val
    (by have := g.isLt; simpa using this) S1024x1536 (w g) ?_ rfl (1024 * g.val) ?_ (ix2 j k) ?_ ?_
  · fin_cases g <;> rfl
  · fin_cases g <;> rfl
  · intro b hb
    match b, hb with
    | ⟨0, _⟩, hb => exact absurd rfl hb
    | ⟨1, _⟩, _ => rfl
  · rfl

/-- The four biases laid end to end: entry `1024·g + j` is entry `j` of the `g`-th bias. -/
private theorem stack_b (b : Fin 4 → (S1024.Idx → EReal))
    (pf : Shape.Concatenates [S1024, S1024, S1024, S1024] S4096 0) (g : Fin 4) (j : Fin 1024) :
    concatenate S4096 0 [⟨S1024, b 0⟩, ⟨S1024, b 1⟩, ⟨S1024, b 2⟩, ⟨S1024, b 3⟩] pf (ix1 (gcol g j)) = b g (ix1 j) := by
  refine concatenate_apply_piece (t := S4096) 0
    [⟨S1024, b 0⟩, ⟨S1024, b 1⟩, ⟨S1024, b 2⟩, ⟨S1024, b 3⟩] pf (ix1 (gcol g j)) g.val
    (by have := g.isLt; simpa using this) S1024 (b g) ?_ rfl (1024 * g.val) ?_ (ix1 j) ?_ ?_
  · fin_cases g <;> rfl
  · fin_cases g <;> rfl
  · intro a ha
    match a, ha with
    | ⟨0, _⟩, ha => exact absurd rfl ha
  · rfl

/-! ## The generated index maps at coordinates -/

private theorem lidx5 (r q : Fin 4096) (k : Fin 1536) : Read.lidx_main_v5 (ix2 r q) k = ix2 r k :=
  funext fun a => match a with | ⟨0, _⟩ => rfl | ⟨1, _⟩ => rfl
private theorem ridx5 (r q : Fin 4096) (k : Fin 1536) : Read.idx_main_v4 (Read.ridx_main_v5 (ix2 r q) k) = ix2 q k :=
  funext fun a => match a with | ⟨0, _⟩ => rfl | ⟨1, _⟩ => rfl
private theorem bidx7 (r q : Fin 4096) : Read.idx_main_v6 (Read.idx_main_v7 (ix2 r q)) = ix1 q :=
  funext fun a => match a with | ⟨0, _⟩ => rfl
private theorem lidx35 (r q : Fin 4096) (k : Fin 1536) : Read.lidx_main_v35 (ix2 r q) k = ix2 r k :=
  funext fun a => match a with | ⟨0, _⟩ => rfl | ⟨1, _⟩ => rfl
private theorem ridx35 (r q : Fin 4096) (k : Fin 1536) : Read.idx_main_v34 (Read.ridx_main_v35 (ix2 r q) k) = ix2 q k :=
  funext fun a => match a with | ⟨0, _⟩ => rfl | ⟨1, _⟩ => rfl
private theorem bidx37 (r q : Fin 4096) : Read.idx_main_v36 (Read.idx_main_v37 (ix2 r q)) = ix1 q :=
  funext fun a => match a with | ⟨0, _⟩ => rfl

/-- Entry `(r, q)` of the first branch's biased product, before the joins are read. -/
private theorem pre1 (x0 : (⟨S4096x512, .f32⟩ : BufTy).Contents (Elt Ideal)) (x1 : (⟨S4096x1024, .f32⟩ : BufTy).Contents (Elt Ideal)) (x5 : (⟨S1024x1536, .f32⟩ : BufTy).Contents (Elt Ideal)) (x6 : (⟨S1024, .f32⟩ : BufTy).Contents (Elt Ideal)) (x7 : (⟨S1024x1536, .f32⟩ : BufTy).Contents (Elt Ideal)) (x8 : (⟨S1024, .f32⟩ : BufTy).Contents (Elt Ideal)) (x9 : (⟨S1024x1536, .f32⟩ : BufTy).Contents (Elt Ideal)) (x10 : (⟨S1024, .f32⟩ : BufTy).Contents (Elt Ideal)) (x11 : (⟨S1024x1536, .f32⟩ : BufTy).Contents (Elt Ideal)) (x12 : (⟨S1024, .f32⟩ : BufTy).Contents (Elt Ideal)) (r q : Fin 4096) :
    Read.val_main_v8 (F := Ideal) x0 x1 x5 x6 x7 x8 x9 x10 x11 x12 (ix2 r q)
      = (∑ k : Fin 1536, Read.val_main_v0 (F := Ideal) x0 x1 (ix2 r k) * Read.val_main_v2 (F := Ideal) x5 x7 x9 x11 (ix2 q k))
        + Read.val_main_v3 (F := Ideal) x6 x8 x10 x12 (ix1 q) := by
  rw [Read.val_main_v8_apply, Read.val_main_v5_apply, Read.val_main_v7_apply, Read.val_main_v6_apply, bidx7]
  simp only [Read.val_main_v4_apply, lidx5, ridx5, Ideal.addf_def]

/-- Entry `(r, q)` of the second branch's biased product, before the joins are read. -/
private theorem pre2 (x0 : (⟨S4096x512, .f32⟩ : BufTy).Contents (Elt Ideal)) (x3 : (⟨S4096x1024, .f32⟩ : BufTy).Contents (Elt Ideal)) (x13 : (⟨S1024x1536, .f32⟩ : BufTy).Contents (Elt Ideal)) (x14 : (⟨S1024, .f32⟩ : BufTy).Contents (Elt Ideal)) (x15 : (⟨S1024x1536, .f32⟩ : BufTy).Contents (Elt Ideal)) (x16 : (⟨S1024, .f32⟩ : BufTy).Contents (Elt Ideal)) (x17 : (⟨S1024x1536, .f32⟩ : BufTy).Contents (Elt Ideal)) (x18 : (⟨S1024, .f32⟩ : BufTy).Contents (Elt Ideal)) (x19 : (⟨S1024x1536, .f32⟩ : BufTy).Contents (Elt Ideal)) (x20 : (⟨S1024, .f32⟩ : BufTy).Contents (Elt Ideal)) (r q : Fin 4096) :
    Read.val_main_v38 (F := Ideal) x0 x3 x13 x14 x15 x16 x17 x18 x19 x20 (ix2 r q)
      = (∑ k : Fin 1536, Read.val_main_v1 (F := Ideal) x0 x3 (ix2 r k) * Read.val_main_v32 (F := Ideal) x13 x15 x17 x19 (ix2 q k))
        + Read.val_main_v33 (F := Ideal) x14 x16 x18 x20 (ix1 q) := by
  rw [Read.val_main_v38_apply, Read.val_main_v35_apply, Read.val_main_v37_apply, Read.val_main_v36_apply, bidx37]
  simp only [Read.val_main_v34_apply, lidx35, ridx35, Ideal.addf_def]

/-- A gate's pre-activation from the joined state, the stacked weights and the stacked biases: the sum over the 1536
    joined features is the state's 1024 plus the input's 512. -/
private theorem gate_of_reads {X Wc : S4096x1536.Idx → EReal} {Bc : S4096.Idx → EReal}
    (h : SBH.Idx → EReal) (y : SBI.Idx → EReal) (W : SW.Idx → EReal) (b : SV.Idx → EReal)
    (q r : Fin 4096) (j : Fin 1024)
    (hl : ∀ k, X (ix2 r (colH k)) = h (ix2 r k)) (hy : ∀ k, X (ix2 r (colY k)) = y (ix2 r k))
    (hW : ∀ k, Wc (ix2 q k) = W (ix2 j k)) (hB : Bc (ix1 q) = b (ix1 j)) :
    (∑ k : Fin 1536, X (ix2 r k) * Wc (ix2 q k)) + Bc (ix1 q) = gatePre h y W b r j := by
  unfold gatePre
  rw [sum_split (fun k => X (ix2 r k) * Wc (ix2 q k)), hB]
  simp only [hl, hy, hW]

/-- Gate `g` of the first branch: columns `1024·g + j` of the biased product. -/
private theorem gate1 (x0 : (⟨S4096x512, .f32⟩ : BufTy).Contents (Elt Ideal)) (x1 : (⟨S4096x1024, .f32⟩ : BufTy).Contents (Elt Ideal)) (x5 : (⟨S1024x1536, .f32⟩ : BufTy).Contents (Elt Ideal)) (x6 : (⟨S1024, .f32⟩ : BufTy).Contents (Elt Ideal)) (x7 : (⟨S1024x1536, .f32⟩ : BufTy).Contents (Elt Ideal)) (x8 : (⟨S1024, .f32⟩ : BufTy).Contents (Elt Ideal)) (x9 : (⟨S1024x1536, .f32⟩ : BufTy).Contents (Elt Ideal)) (x10 : (⟨S1024, .f32⟩ : BufTy).Contents (Elt Ideal)) (x11 : (⟨S1024x1536, .f32⟩ : BufTy).Contents (Elt Ideal)) (x12 : (⟨S1024, .f32⟩ : BufTy).Contents (Elt Ideal)) (g : Fin 4) (r : Fin 4096) (j : Fin 1024) :
    Read.val_main_v8 (F := Ideal) x0 x1 x5 x6 x7 x8 x9 x10 x11 x12 (ix2 r (gcol g j))
      = gatePre x1 x0 (![x5, x7, x9, x11] g) (![x6, x8, x10, x12] g) r j := by
  rw [pre1]
  exact gate_of_reads x1 x0 _ _ (gcol g j) r j (fun k => join_left x1 x0 _ r k) (fun k => join_right x1 x0 _ r k)
    (fun k => stack_w ![x5, x7, x9, x11] _ g j k) (stack_b ![x6, x8, x10, x12] _ g j)

/-- Gate `g` of the second branch. -/
private theorem gate2 (x0 : (⟨S4096x512, .f32⟩ : BufTy).Contents (Elt Ideal)) (x3 : (⟨S4096x1024, .f32⟩ : BufTy).Contents (Elt Ideal)) (x13 : (⟨S1024x1536, .f32⟩ : BufTy).Contents (Elt Ideal)) (x14 : (⟨S1024, .f32⟩ : BufTy).Contents (Elt Ideal)) (x15 : (⟨S1024x1536, .f32⟩ : BufTy).Contents (Elt Ideal)) (x16 : (⟨S1024, .f32⟩ : BufTy).Contents (Elt Ideal)) (x17 : (⟨S1024x1536, .f32⟩ : BufTy).Contents (Elt Ideal)) (x18 : (⟨S1024, .f32⟩ : BufTy).Contents (Elt Ideal)) (x19 : (⟨S1024x1536, .f32⟩ : BufTy).Contents (Elt Ideal)) (x20 : (⟨S1024, .f32⟩ : BufTy).Contents (Elt Ideal)) (g : Fin 4) (r : Fin 4096) (j : Fin 1024) :
    Read.val_main_v38 (F := Ideal) x0 x3 x13 x14 x15 x16 x17 x18 x19 x20 (ix2 r (gcol g j))
      = gatePre x3 x0 (![x13, x15, x17, x19] g) (![x14, x16, x18, x20] g) r j := by
  rw [pre2]
  exact gate_of_reads x3 x0 _ _ (gcol g j) r j (fun k => join_left x3 x0 _ r k) (fun k => join_right x3 x0 _ r k)
    (fun k => stack_w ![x13, x15, x17, x19] _ g j k) (stack_b ![x14, x16, x18, x20] _ g j)

/-! ## The four slices of each biased product -/

private theorem sl9 (r : Fin 4096) (j : Fin 1024) : Read.idx_main_v9 (ix2 r j) = ix2 r (gcol 0 j) :=
  funext fun a => match a with
    | ⟨0, _⟩ => rfl
    | ⟨1, _⟩ => Fin.ext (by show j.val = 1024 * 0 + j.val; omega)
private theorem sl10 (r : Fin 4096) (j : Fin 1024) : Read.idx_main_v10 (ix2 r j) = ix2 r (gcol 1 j) :=
  funext fun a => match a with
    | ⟨0, _⟩ => rfl
    | ⟨1, _⟩ => Fin.ext (by show 1024 + j.val = 1024 * 1 + j.val; omega)
private theorem sl11 (r : Fin 4096) (j : Fin 1024) : Read.idx_main_v11 (ix2 r j) = ix2 r (gcol 2 j) :=
  funext fun a => match a with
    | ⟨0, _⟩ => rfl
    | ⟨1, _⟩ => Fin.ext (by show 2048 + j.val = 1024 * 2 + j.val; omega)
private theorem sl12 (r : Fin 4096) (j : Fin 1024) : Read.idx_main_v12 (ix2 r j) = ix2 r (gcol 3 j) :=
  funext fun a => match a with
    | ⟨0, _⟩ => rfl
    | ⟨1, _⟩ => Fin.ext (by show 3072 + j.val = 1024 * 3 + j.val; omega)
private theorem sl39 (r : Fin 4096) (j : Fin 1024) : Read.idx_main_v39 (ix2 r j) = ix2 r (gcol 0 j) :=
  funext fun a => match a with
    | ⟨0, _⟩ => rfl
    | ⟨1, _⟩ => Fin.ext (by show j.val = 1024 * 0 + j.val; omega)
private theorem sl40 (r : Fin 4096) (j : Fin 1024) : Read.idx_main_v40 (ix2 r j) = ix2 r (gcol 1 j) :=
  funext fun a => match a with
    | ⟨0, _⟩ => rfl
    | ⟨1, _⟩ => Fin.ext (by show 1024 + j.val = 1024 * 1 + j.val; omega)
private theorem sl41 (r : Fin 4096) (j : Fin 1024) : Read.idx_main_v41 (ix2 r j) = ix2 r (gcol 2 j) :=
  funext fun a => match a with
    | ⟨0, _⟩ => rfl
    | ⟨1, _⟩ => Fin.ext (by show 2048 + j.val = 1024 * 2 + j.val; omega)
private theorem sl42 (r : Fin 4096) (j : Fin 1024) : Read.idx_main_v42 (ix2 r j) = ix2 r (gcol 3 j) :=
  funext fun a => match a with
    | ⟨0, _⟩ => rfl
    | ⟨1, _⟩ => Fin.ext (by show 3072 + j.val = 1024 * 3 + j.val; omega)

/-! ## The eight activations -/

private theorem sig1_0 (x0 : (⟨S4096x512, .f32⟩ : BufTy).Contents (Elt Ideal)) (x1 : (⟨S4096x1024, .f32⟩ : BufTy).Contents (Elt Ideal)) (x5 : (⟨S1024x1536, .f32⟩ : BufTy).Contents (Elt Ideal)) (x6 : (⟨S1024, .f32⟩ : BufTy).Contents (Elt Ideal)) (x7 : (⟨S1024x1536, .f32⟩ : BufTy).Contents (Elt Ideal)) (x8 : (⟨S1024, .f32⟩ : BufTy).Contents (Elt Ideal)) (x9 : (⟨S1024x1536, .f32⟩ : BufTy).Contents (Elt Ideal)) (x10 : (⟨S1024, .f32⟩ : BufTy).Contents (Elt Ideal)) (x11 : (⟨S1024x1536, .f32⟩ : BufTy).Contents (Elt Ideal)) (x12 : (⟨S1024, .f32⟩ : BufTy).Contents (Elt Ideal)) (r : Fin 4096) (j : Fin 1024) :
    Read.val_main_v18 (F := Ideal) x0 x1 x5 x6 x7 x8 x9 x10 x11 x12 (ix2 r j) = Ideal.logistic (gatePre x1 x0 x5 x6 r j) := by
  rw [Read.val_main_v18_apply, Read.val_main_v17_apply, Read.val_main_cst_0_apply, Read.val_main_v16_apply,
    Read.val_main_v15_apply, Read.val_main_cst_apply, Read.val_main_v14_apply, Read.val_main_v13_apply,
    Read.val_main_v9_apply, sl9, host_logistic]
  exact congrArg Ideal.logistic (gate1 x0 x1 x5 x6 x7 x8 x9 x10 x11 x12 0 r j)
private theorem sig1_1 (x0 : (⟨S4096x512, .f32⟩ : BufTy).Contents (Elt Ideal)) (x1 : (⟨S4096x1024, .f32⟩ : BufTy).Contents (Elt Ideal)) (x5 : (⟨S1024x1536, .f32⟩ : BufTy).Contents (Elt Ideal)) (x6 : (⟨S1024, .f32⟩ : BufTy).Contents (Elt Ideal)) (x7 : (⟨S1024x1536, .f32⟩ : BufTy).Contents (Elt Ideal)) (x8 : (⟨S1024, .f32⟩ : BufTy).Contents (Elt Ideal)) (x9 : (⟨S1024x1536, .f32⟩ : BufTy).Contents (Elt Ideal)) (x10 : (⟨S1024, .f32⟩ : BufTy).Contents (Elt Ideal)) (x11 : (⟨S1024x1536, .f32⟩ : BufTy).Contents (Elt Ideal)) (x12 : (⟨S1024, .f32⟩ : BufTy).Contents (Elt Ideal)) (r : Fin 4096) (j : Fin 1024) :
    Read.val_main_v24 (F := Ideal) x0 x1 x5 x6 x7 x8 x9 x10 x11 x12 (ix2 r j) = Ideal.logistic (gatePre x1 x0 x7 x8 r j) := by
  rw [Read.val_main_v24_apply, Read.val_main_v23_apply, Read.val_main_cst_2_apply, Read.val_main_v22_apply,
    Read.val_main_v21_apply, Read.val_main_cst_1_apply, Read.val_main_v20_apply, Read.val_main_v19_apply,
    Read.val_main_v10_apply, sl10, host_logistic]
  exact congrArg Ideal.logistic (gate1 x0 x1 x5 x6 x7 x8 x9 x10 x11 x12 1 r j)
private theorem tanh1 (x0 : (⟨S4096x512, .f32⟩ : BufTy).Contents (Elt Ideal)) (x1 : (⟨S4096x1024, .f32⟩ : BufTy).Contents (Elt Ideal)) (x5 : (⟨S1024x1536, .f32⟩ : BufTy).Contents (Elt Ideal)) (x6 : (⟨S1024, .f32⟩ : BufTy).Contents (Elt Ideal)) (x7 : (⟨S1024x1536, .f32⟩ : BufTy).Contents (Elt Ideal)) (x8 : (⟨S1024, .f32⟩ : BufTy).Contents (Elt Ideal)) (x9 : (⟨S1024x1536, .f32⟩ : BufTy).Contents (Elt Ideal)) (x10 : (⟨S1024, .f32⟩ : BufTy).Contents (Elt Ideal)) (x11 : (⟨S1024x1536, .f32⟩ : BufTy).Contents (Elt Ideal)) (x12 : (⟨S1024, .f32⟩ : BufTy).Contents (Elt Ideal)) (r : Fin 4096) (j : Fin 1024) :
    Read.val_main_v25 (F := Ideal) x0 x1 x5 x6 x7 x8 x9 x10 x11 x12 (ix2 r j) = Ideal.tanh (gatePre x1 x0 x9 x10 r j) := by
  rw [Read.val_main_v25_apply, Read.val_main_v11_apply, sl11, Ideal.hostUnary_tanh_def]
  exact congrArg Ideal.tanh (gate1 x0 x1 x5 x6 x7 x8 x9 x10 x11 x12 2 r j)
private theorem sig1_3 (x0 : (⟨S4096x512, .f32⟩ : BufTy).Contents (Elt Ideal)) (x1 : (⟨S4096x1024, .f32⟩ : BufTy).Contents (Elt Ideal)) (x5 : (⟨S1024x1536, .f32⟩ : BufTy).Contents (Elt Ideal)) (x6 : (⟨S1024, .f32⟩ : BufTy).Contents (Elt Ideal)) (x7 : (⟨S1024x1536, .f32⟩ : BufTy).Contents (Elt Ideal)) (x8 : (⟨S1024, .f32⟩ : BufTy).Contents (Elt Ideal)) (x9 : (⟨S1024x1536, .f32⟩ : BufTy).Contents (Elt Ideal)) (x10 : (⟨S1024, .f32⟩ : BufTy).Contents (Elt Ideal)) (x11 : (⟨S1024x1536, .f32⟩ : BufTy).Contents (Elt Ideal)) (x12 : (⟨S1024, .f32⟩ : BufTy).Contents (Elt Ideal)) (r : Fin 4096) (j : Fin 1024) :
    Read.val_main_v31 (F := Ideal) x0 x1 x5 x6 x7 x8 x9 x10 x11 x12 (ix2 r j) = Ideal.logistic (gatePre x1 x0 x11 x12 r j) := by
  rw [Read.val_main_v31_apply, Read.val_main_v30_apply, Read.val_main_cst_4_apply, Read.val_main_v29_apply,
    Read.val_main_v28_apply, Read.val_main_cst_3_apply, Read.val_main_v27_apply, Read.val_main_v26_apply,
    Read.val_main_v12_apply, sl12, host_logistic]
  exact congrArg Ideal.logistic (gate1 x0 x1 x5 x6 x7 x8 x9 x10 x11 x12 3 r j)
private theorem sig2_0 (x0 : (⟨S4096x512, .f32⟩ : BufTy).Contents (Elt Ideal)) (x3 : (⟨S4096x1024, .f32⟩ : BufTy).Contents (Elt Ideal)) (x13 : (⟨S1024x1536, .f32⟩ : BufTy).Contents (Elt Ideal)) (x14 : (⟨S1024, .f32⟩ : BufTy).Contents (Elt Ideal)) (x15 : (⟨S1024x1536, .f32⟩ : BufTy).Contents (Elt Ideal)) (x16 : (⟨S1024, .f32⟩ : BufTy).Contents (Elt Ideal)) (x17 : (⟨S1024x1536, .f32⟩ : BufTy).Contents (Elt Ideal)) (x18 : (⟨S1024, .f32⟩ : BufTy).Contents (Elt Ideal)) (x19 : (⟨S1024x1536, .f32⟩ : BufTy).Contents (Elt Ideal)) (x20 : (⟨S1024, .f32⟩ : BufTy).Contents (Elt Ideal)) (r : Fin 4096) (j : Fin 1024) :
    Read.val_main_v48 (F := Ideal) x0 x3 x13 x14 x15 x16 x17 x18 x19 x20 (ix2 r j) = Ideal.logistic (gatePre x3 x0 x13 x14 r j) := by
  rw [Read.val_main_v48_apply, Read.val_main_v47_apply, Read.val_main_cst_6_apply, Read.val_main_v46_apply,
    Read.val_main_v45_apply, Read.val_main_cst_5_apply, Read.val_main_v44_apply, Read.val_main_v43_apply,
    Read.val_main_v39_apply, sl39, host_logistic]
  exact congrArg Ideal.logistic (gate2 x0 x3 x13 x14 x15 x16 x17 x18 x19 x20 0 r j)
private theorem sig2_1 (x0 : (⟨S4096x512, .f32⟩ : BufTy).Contents (Elt Ideal)) (x3 : (⟨S4096x1024, .f32⟩ : BufTy).Contents (Elt Ideal)) (x13 : (⟨S1024x1536, .f32⟩ : BufTy).Contents (Elt Ideal)) (x14 : (⟨S1024, .f32⟩ : BufTy).Contents (Elt Ideal)) (x15 : (⟨S1024x1536, .f32⟩ : BufTy).Contents (Elt Ideal)) (x16 : (⟨S1024, .f32⟩ : BufTy).Contents (Elt Ideal)) (x17 : (⟨S1024x1536, .f32⟩ : BufTy).Contents (Elt Ideal)) (x18 : (⟨S1024, .f32⟩ : BufTy).Contents (Elt Ideal)) (x19 : (⟨S1024x1536, .f32⟩ : BufTy).Contents (Elt Ideal)) (x20 : (⟨S1024, .f32⟩ : BufTy).Contents (Elt Ideal)) (r : Fin 4096) (j : Fin 1024) :
    Read.val_main_v54 (F := Ideal) x0 x3 x13 x14 x15 x16 x17 x18 x19 x20 (ix2 r j) = Ideal.logistic (gatePre x3 x0 x15 x16 r j) := by
  rw [Read.val_main_v54_apply, Read.val_main_v53_apply, Read.val_main_cst_8_apply, Read.val_main_v52_apply,
    Read.val_main_v51_apply, Read.val_main_cst_7_apply, Read.val_main_v50_apply, Read.val_main_v49_apply,
    Read.val_main_v40_apply, sl40, host_logistic]
  exact congrArg Ideal.logistic (gate2 x0 x3 x13 x14 x15 x16 x17 x18 x19 x20 1 r j)
private theorem tanh2 (x0 : (⟨S4096x512, .f32⟩ : BufTy).Contents (Elt Ideal)) (x3 : (⟨S4096x1024, .f32⟩ : BufTy).Contents (Elt Ideal)) (x13 : (⟨S1024x1536, .f32⟩ : BufTy).Contents (Elt Ideal)) (x14 : (⟨S1024, .f32⟩ : BufTy).Contents (Elt Ideal)) (x15 : (⟨S1024x1536, .f32⟩ : BufTy).Contents (Elt Ideal)) (x16 : (⟨S1024, .f32⟩ : BufTy).Contents (Elt Ideal)) (x17 : (⟨S1024x1536, .f32⟩ : BufTy).Contents (Elt Ideal)) (x18 : (⟨S1024, .f32⟩ : BufTy).Contents (Elt Ideal)) (x19 : (⟨S1024x1536, .f32⟩ : BufTy).Contents (Elt Ideal)) (x20 : (⟨S1024, .f32⟩ : BufTy).Contents (Elt Ideal)) (r : Fin 4096) (j : Fin 1024) :
    Read.val_main_v55 (F := Ideal) x0 x3 x13 x14 x15 x16 x17 x18 x19 x20 (ix2 r j) = Ideal.tanh (gatePre x3 x0 x17 x18 r j) := by
  rw [Read.val_main_v55_apply, Read.val_main_v41_apply, sl41, Ideal.hostUnary_tanh_def]
  exact congrArg Ideal.tanh (gate2 x0 x3 x13 x14 x15 x16 x17 x18 x19 x20 2 r j)
private theorem sig2_3 (x0 : (⟨S4096x512, .f32⟩ : BufTy).Contents (Elt Ideal)) (x3 : (⟨S4096x1024, .f32⟩ : BufTy).Contents (Elt Ideal)) (x13 : (⟨S1024x1536, .f32⟩ : BufTy).Contents (Elt Ideal)) (x14 : (⟨S1024, .f32⟩ : BufTy).Contents (Elt Ideal)) (x15 : (⟨S1024x1536, .f32⟩ : BufTy).Contents (Elt Ideal)) (x16 : (⟨S1024, .f32⟩ : BufTy).Contents (Elt Ideal)) (x17 : (⟨S1024x1536, .f32⟩ : BufTy).Contents (Elt Ideal)) (x18 : (⟨S1024, .f32⟩ : BufTy).Contents (Elt Ideal)) (x19 : (⟨S1024x1536, .f32⟩ : BufTy).Contents (Elt Ideal)) (x20 : (⟨S1024, .f32⟩ : BufTy).Contents (Elt Ideal)) (r : Fin 4096) (j : Fin 1024) :
    Read.val_main_v61 (F := Ideal) x0 x3 x13 x14 x15 x16 x17 x18 x19 x20 (ix2 r j) = Ideal.logistic (gatePre x3 x0 x19 x20 r j) := by
  rw [Read.val_main_v61_apply, Read.val_main_v60_apply, Read.val_main_cst_10_apply, Read.val_main_v59_apply,
    Read.val_main_v58_apply, Read.val_main_cst_9_apply, Read.val_main_v57_apply, Read.val_main_v56_apply,
    Read.val_main_v42_apply, sl42, host_logistic]
  exact congrArg Ideal.logistic (gate2 x0 x3 x13 x14 x15 x16 x17 x18 x19 x20 3 r j)

/-! ## The two results at an index -/

/-- The reference's new cell at `(r, j)`: it adds `(f₁·c + i₁·g₁) + (f₂·c + i₂·g₂)`, which is the cell's
    `((f₁·c + i₁·g₁) + f₂·c) + i₂·g₂` by associativity. -/
private theorem cell_val (x0 : (⟨S4096x512, .f32⟩ : BufTy).Contents (Elt Ideal)) (x1 x2 x3 : (⟨S4096x1024, .f32⟩ : BufTy).Contents (Elt Ideal)) (x5 : (⟨S1024x1536, .f32⟩ : BufTy).Contents (Elt Ideal)) (x6 : (⟨S1024, .f32⟩ : BufTy).Contents (Elt Ideal)) (x7 : (⟨S1024x1536, .f32⟩ : BufTy).Contents (Elt Ideal)) (x8 : (⟨S1024, .f32⟩ : BufTy).Contents (Elt Ideal)) (x9 : (⟨S1024x1536, .f32⟩ : BufTy).Contents (Elt Ideal)) (x10 : (⟨S1024, .f32⟩ : BufTy).Contents (Elt Ideal)) (x11 : (⟨S1024x1536, .f32⟩ : BufTy).Contents (Elt Ideal)) (x12 : (⟨S1024, .f32⟩ : BufTy).Contents (Elt Ideal)) (x13 : (⟨S1024x1536, .f32⟩ : BufTy).Contents (Elt Ideal)) (x14 : (⟨S1024, .f32⟩ : BufTy).Contents (Elt Ideal)) (x15 : (⟨S1024x1536, .f32⟩ : BufTy).Contents (Elt Ideal)) (x16 : (⟨S1024, .f32⟩ : BufTy).Contents (Elt Ideal)) (x17 : (⟨S1024x1536, .f32⟩ : BufTy).Contents (Elt Ideal)) (x18 : (⟨S1024, .f32⟩ : BufTy).Contents (Elt Ideal)) (x19 : (⟨S1024x1536, .f32⟩ : BufTy).Contents (Elt Ideal)) (x20 : (⟨S1024, .f32⟩ : BufTy).Contents (Elt Ideal)) (r : Fin 4096) (j : Fin 1024) :
    Read.val_main_v68 (F := Ideal) x0 x1 x2 x3 x5 x6 x7 x8 x9 x10 x11 x12 x13 x14 x15 x16 x17 x18 x19 x20 (ix2 r j)
      = cellNew ⟨x0, x1, x2, x3, x5, x6, x7, x8, x9, x10, x11, x12, x13, x14, x15, x16, x17, x18, x19, x20⟩ r j := by
  rw [Read.val_main_v68_apply, Read.val_main_v64_apply, Read.val_main_v62_apply, Read.val_main_v63_apply,
    Read.val_main_v67_apply, Read.val_main_v65_apply, Read.val_main_v66_apply,
    sig1_0, sig1_1, tanh1, sig2_0, sig2_1, tanh2]
  simp only [Ideal.addf_def, Ideal.mulf_def]
  unfold cellNew
  exact (add_assoc _ _ _).symm

/-- The reference's new hidden state at `(r, j)`. -/
private theorem hid_val (x0 : (⟨S4096x512, .f32⟩ : BufTy).Contents (Elt Ideal)) (x1 x2 x3 : (⟨S4096x1024, .f32⟩ : BufTy).Contents (Elt Ideal)) (x5 : (⟨S1024x1536, .f32⟩ : BufTy).Contents (Elt Ideal)) (x6 : (⟨S1024, .f32⟩ : BufTy).Contents (Elt Ideal)) (x7 : (⟨S1024x1536, .f32⟩ : BufTy).Contents (Elt Ideal)) (x8 : (⟨S1024, .f32⟩ : BufTy).Contents (Elt Ideal)) (x9 : (⟨S1024x1536, .f32⟩ : BufTy).Contents (Elt Ideal)) (x10 : (⟨S1024, .f32⟩ : BufTy).Contents (Elt Ideal)) (x11 : (⟨S1024x1536, .f32⟩ : BufTy).Contents (Elt Ideal)) (x12 : (⟨S1024, .f32⟩ : BufTy).Contents (Elt Ideal)) (x13 : (⟨S1024x1536, .f32⟩ : BufTy).Contents (Elt Ideal)) (x14 : (⟨S1024, .f32⟩ : BufTy).Contents (Elt Ideal)) (x15 : (⟨S1024x1536, .f32⟩ : BufTy).Contents (Elt Ideal)) (x16 : (⟨S1024, .f32⟩ : BufTy).Contents (Elt Ideal)) (x17 : (⟨S1024x1536, .f32⟩ : BufTy).Contents (Elt Ideal)) (x18 : (⟨S1024, .f32⟩ : BufTy).Contents (Elt Ideal)) (x19 : (⟨S1024x1536, .f32⟩ : BufTy).Contents (Elt Ideal)) (x20 : (⟨S1024, .f32⟩ : BufTy).Contents (Elt Ideal)) (r : Fin 4096) (j : Fin 1024) :
    Read.val_main_v71 (F := Ideal) x0 x1 x2 x3 x5 x6 x7 x8 x9 x10 x11 x12 x13 x14 x15 x16 x17 x18 x19 x20 (ix2 r j)
      = hidNew ⟨x0, x1, x2, x3, x5, x6, x7, x8, x9, x10, x11, x12, x13, x14, x15, x16, x17, x18, x19, x20⟩ r j := by
  rw [Read.val_main_v71_apply, Read.val_main_v69_apply, Read.val_main_v70_apply, sig1_3, sig2_3, cell_val,
    Ideal.hostUnary_tanh_def]
  simp only [Ideal.addf_def, Ideal.mulf_def]
  rfl

/-! ## The reference's two results -/

/-- The reference's first result is the new hidden state. -/
theorem res_hid (m : (ℓ : Loc nD τ sig) → Buf (Elt Ideal) ℓ) (c : Dev nD) :
    (Cert.ReferenceIdeal.Value.res_main_v71 (F := Ideal) m c : SBH.Idx → EReal) = hidArr (args m c) := by
  rw [Read.val_main_v71_eq]
  funext i
  obtain ⟨r, j, rfl⟩ : ∃ (r : Fin 4096) (j : Fin 1024), i = ix2 r j := ⟨i 0, i 1, eq_ix2 i⟩
  exact hid_val _ _ _ _ _ _ _ _ _ _ _ _ _ _ _ _ _ _ _ _ r j

/-- The reference's second result is the new cell. -/
theorem res_cell (m : (ℓ : Loc nD τ sig) → Buf (Elt Ideal) ℓ) (c : Dev nD) :
    (Cert.ReferenceIdeal.Value.res_main_v68 (F := Ideal) m c : SBH.Idx → EReal) = cellArr (args m c) := by
  rw [Read.val_main_v68_eq]
  funext i
  obtain ⟨r, j, rfl⟩ : ∃ (r : Fin 4096) (j : Fin 1024), i = ix2 r j := ⟨i 0, i 1, eq_ix2 i⟩
  exact cell_val _ _ _ _ _ _ _ _ _ _ _ _ _ _ _ _ _ _ _ _ r j

end Cert.ReferenceIdeal.Cell

end
-- ==== Proof.lean ====
/-
  The dual-branch LSTM cell: the blocked program and the reference compute the same two arrays.

  All three programs run to the end without a fault and leave their twenty-one arguments as launched: the two blocked
  programs because the host's layout operations and the call write only new arrays and the call's input windows are
  never written back; the reference because it is host operations only.  The idealization rewrote nothing, so there is
  nothing to preserve.  On the extended reals the blocked program's two results are the cell's new hidden state and new
  cell as functions of the arguments (each grid point writes 64 rows of them, and the 64 tiles cover the arrays), and
  the reference's two results are the same functions of the same arguments: its one product over the 1536 joined
  features is the sum of the products over the state's 1024 and the input's 512, its written-out logistic is the
  logistic function, and it adds the four cell terms in another grouping.
-/
import proofs.«140409_j13769665150976_1_alg».proof.Defs
import proofs.«140409_j13769665150976_1_alg».proof.Proof.Gen.Kernel
import proofs.«140409_j13769665150976_1_alg».proof.Proof.Gen.KernelIdeal
import proofs.«140409_j13769665150976_1_alg».proof.Proof.Gen.ReferenceIdeal
import proofs.«140409_j13769665150976_1_alg».proof.Proof.Gen.Pre_finite_inputs
import proofs.«140409_j13769665150976_1_alg».proof.Proof.Gen.ReferenceIdeal.Run
import proofs.«140409_j13769665150976_1_alg».proof.Proof.KernelRun
import proofs.«140409_j13769665150976_1_alg».proof.Proof.KerRun
import proofs.«140409_j13769665150976_1_alg».proof.Proof.KerCell
import proofs.«140409_j13769665150976_1_alg».proof.Proof.RefCell
import Idealize.ShloMosaic.Adequacy
import Idealize.ShloMosaic.Init

noncomputable section

namespace Cert.Proof

open Idealize.ShloMosaic Idealize.SL.Sem Cert.LstmSpec

/-- The word-level program runs and keeps its arguments. -/
theorem frame_k : Cert.frame_Kernel := fun m ρ _ =>
  (θ_run (Cert.Kernel.defs (F := Bits)) _ _).mono (fun _ h c => (h c).2.2) (Cert.Kernel.Run.run_named (F := Bits) m ρ)

/-- The idealized program runs and keeps its arguments. -/
theorem frame_ki : Cert.frame_KernelIdeal := fun m ρ _ =>
  (θ_run (Cert.KernelIdeal.defs (F := Ideal)) _ _).mono (fun _ h c => (h c).2.2) (Cert.KernelIdeal.Run.run_named (F := Ideal) m ρ)

/-- The reference runs and keeps its arguments. -/
theorem frame_ri : Cert.frame_ReferenceIdeal := fun m ρ _ =>
  (θ_run (Cert.ReferenceIdeal.defs (F := Ideal)) _ _).mono (fun _ h c => (h c).2.2) (Cert.ReferenceIdeal.Value.run (F := Ideal) m ρ)

/-- The idealization rewrote no operation. -/
theorem preserves : Cert.preserves_Kernel_KernelIdeal := trivial

/-- From memories that agree on the arguments, both idealized programs end with the new hidden state and the new cell. -/
theorem algebraic : Cert.algebraic_KernelIdeal_ReferenceIdeal := by
  intro m ρ m' ρ' _ hagree
  have hargs : ∀ c, Cert.ReferenceIdeal.Cell.args m' c = Cert.KernelIdeal.Cell.args m c := fun c => by
    obtain ⟨h0, h1, h2, h3, h4, h5, h6, h7, h8, h9, h10, h11, h12, h13, h14, h15, h16, h17, h18, h19, h20⟩ := hagree c
    unfold Cert.ReferenceIdeal.Cell.args Cert.KernelIdeal.Cell.args
    rw [h0, h1, h2, h3, h5, h6, h7, h8, h9, h10, h11, h12, h13, h14, h15, h16, h17, h18, h19, h20]
  refine ⟨fun c => hidArr (Cert.KernelIdeal.Cell.args m c), fun c => cellArr (Cert.KernelIdeal.Cell.args m c), ?_, ?_⟩
  · exact (θ_run (Cert.KernelIdeal.defs (F := Ideal)) _ _).mono
      (fun _ h c => ⟨(h c).1.trans (Cert.KernelIdeal.Cell.final_hid m c), (h c).2.1.trans (Cert.KernelIdeal.Cell.final_cell m c), (h c).2.2⟩)
      (Cert.KernelIdeal.Run.run_named (F := Ideal) m ρ)
  · refine (θ_run (Cert.ReferenceIdeal.defs (F := Ideal)) _ _).mono (fun _ h c => ⟨(h c).1.trans ?_, (h c).2.1.trans ?_, (h c).2.2⟩)
      (Cert.ReferenceIdeal.Value.run (F := Ideal) m' ρ')
    · exact (Cert.ReferenceIdeal.Cell.res_hid m' c).trans (congrArg hidArr (hargs c))
    · exact (Cert.ReferenceIdeal.Cell.res_cell m' c).trans (congrArg cellArr (hargs c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
